-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S128x2 : Shape := ⟨2, ![128, 2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  bcast_S_S128x2 : S_.BroadcastsInDim S128x2 (![] : Fin 0 → Fin S128x2.rank)
  reducesTo_S128x2_S_d0_1 : S128x2.ReducesTo [0, 1] S_

variable [Facts]

def fn_part1 {F : FTy → Type} [FloatOps F] (main_arg5 : FVec F S2 .f32) (main_arg6 : FVec F S128x2 .f32) (main_v13 : IVec S_ 1) (main_v16 : IVec S256x2 1) : IVec S_ 1 :=
  let main_c_5 : IVec S_ 1 := constantI S_ 1 1#1
  let main_v17 : IVec S_ 1 := (fun x v => Host.reduce IntOp.andi x v reducesTo_S256x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S128x2 .f32 := Host.absf main_arg6
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  main_v28

def fn {F : FTy → Type} [FloatOps F] (main_arg0 : FVec F S50000x128 .f32) (main_arg1 : IVec S2x1600000 32) (main_arg2 : FVec F S128x128 .f32) (main_arg3 : FVec F S128 .f32) (main_arg4 : FVec F S256x2 .f32) (main_arg5 : FVec F S2 .f32) (main_arg6 : FVec F S128x2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x2 .f32 := Host.absf main_arg4
  let main_cst_4 : FVec F S_ .f32 := constant S_ .f32 0x7F800000#32
  let main_v15 : FVec F S256x2 .f32 := broadcastInDim S256x2 ![] bcast_S_S256x2 main_cst_4
  let main_v16 : IVec S256x2 1 := cmpf .olt main_v14 main_v15
  fn_part1 (F := F) main_arg5 main_arg6 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S128x2 : Shape := ⟨2, ![128, 2]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S2000x128 : Shape := ⟨2, ![2000, 128]⟩
abbrev S1600000x128 : Shape := ⟨2, ![1600000, 128]⟩
abbrev S1x128 : Shape := ⟨2, ![1, 128]⟩
abbrev S2000x1 : Shape := ⟨2, ![2000, 1]⟩
abbrev S50000x256 : Shape := ⟨2, ![50000, 256]⟩
abbrev S256x128 : Shape := ⟨2, ![256, 128]⟩
abbrev S2000x256 : Shape := ⟨2, ![2000, 256]⟩
abbrev S50000x2 : Shape := ⟨2, ![50000, 2]⟩

abbrev nBuf : Space → Nat
  | .hbm => 93
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S256x2, .f32⟩
  | .hbm, ⟨5, _⟩ => ⟨S2, .f32⟩
  | .hbm, ⟨6, _⟩ => ⟨S128x2, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S50000, .f32⟩
  | .hbm, ⟨15, _⟩ => ⟨S1600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S1600000x1, .f32⟩
  | .hbm, ⟨43, _⟩ => ⟨S50000, .f32⟩
  | .hbm, ⟨44, _⟩ => ⟨S50000x1, .f32⟩
  | .hbm, ⟨45, _⟩ => ⟨S50000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S50000x128, .f32⟩
  | .hbm, ⟨59, _⟩ => ⟨S1600000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x256, .f32⟩
  | .hbm, ⟨64, _⟩ => ⟨S_, .i32⟩
  | .hbm, ⟨65, _⟩ => ⟨S_, .f32⟩
  | .hbm, ⟨66, _⟩ => ⟨S256x128, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S_, .i32⟩
  | .hbm, ⟨72, _⟩ => ⟨S_, .f32⟩
  | .hbm, ⟨73, _⟩ => ⟨S128x128, .f32⟩
  | .hbm, ⟨74, _⟩ => ⟨S50000x128, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x128, .f32⟩
  | .hbm, ⟨84, _⟩ => ⟨S1600000x128, .f32⟩
  | .hbm, ⟨85, _⟩ => ⟨S1600000x128, .f32⟩
  | .hbm, ⟨86, _⟩ => ⟨S_, .f32⟩
  | .hbm, ⟨87, _⟩ => ⟨S50000x128, .f32⟩
  | .hbm, ⟨88, _⟩ => ⟨S1600000x1, .i32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x256, .f32⟩
  | .local _ .vmem, ⟨15, _⟩ => ⟨S2000x256, .f32⟩
  | .local _ .vmem, ⟨16, _⟩ => ⟨S256x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x1, .f32⟩
  | .local _ .vmem, ⟨29, _⟩ => ⟨S2000x1, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_call0_v0 : Ref sig .tc := ⟨.hbm, 65, rfl⟩
abbrev main_v46 : Ref sig .tc := ⟨.hbm, 66, rfl⟩
abbrev main_c_10 : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_11 : Ref sig .tc := ⟨.hbm, 71, rfl⟩
abbrev main_call2_v0 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_v52 : Ref sig .tc := ⟨.hbm, 77, rfl⟩
abbrev main_c_13 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg4_1 : Ref sig .tc := ⟨.vmem, 32, rfl⟩
abbrev cc4_stg5_0 : Ref sig .tc := ⟨.vmem, 33, rfl⟩
abbrev cc4_stg5_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem4_0 : DmaSem sig := 31
abbrev cc4_sem4_1 : DmaSem sig := 32
abbrev cc4_sem5_0 : DmaSem sig := 33
abbrev cc4_sem5_1 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  concatenates_S50000x128_S50000x128_S50000x256_d1 : Shape.Concatenates [S50000x128, S50000x128] S50000x256 1
  pads_S256x2_S256x128_000_01260 : S256x2.Pads (![0, 0] : Fin 2 → Nat) ![0, 126] ![0, 0] S256x128
  h_S_ : 0 < S_.numel
  pads_S2_S128_01260 : S2.Pads (![0] : Fin 1 → Nat) ![126] ![0] S128
  pads_S128x2_S128x128_000_01260 : S128x2.Pads (![0, 0] : Fin 2 → Nat) ![0, 126] ![0, 0] S128x128
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S128x128_S128x128 : S128x128.ShapeCasts S128x128
  slices_S50000x128_S50000x2_0_0 : S50000x128.Slices ![0, 0] S50000x2
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S2000x128_S128x128_S2000x128_1_0_0_1_n_n_wf : DotDims.WF S2000x128 S128x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .f32 = 32 ∨ (Rect.block (s := S50000x128) S2000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v29) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v48) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v63) S2000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v64) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S128x2 : Shape := ⟨2, ![128, 2]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S50000x256 : Shape := ⟨2, ![50000, 256]⟩
abbrev S50000x2 : Shape := ⟨2, ![50000, 2]⟩
abbrev S1600000x2 : Shape := ⟨2, ![1600000, 2]⟩
abbrev S1x2 : Shape := ⟨2, ![1, 2]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S256x2, .f32⟩
  | 5 => ⟨S2, .f32⟩
  | 6 => ⟨S128x2, .f32⟩
  | 7 => ⟨S1x1600000, .i32⟩
  | 8 => ⟨S1600000, .i32⟩
  | 9 => ⟨S1x1600000, .i32⟩
  | 10 => ⟨S1600000, .i32⟩
  | 11 => ⟨S50000x128, .f32⟩
  | 12 => ⟨S_, .f32⟩
  | 13 => ⟨S1600000, .f32⟩
  | 14 => ⟨S_, .f32⟩
  | 15 => ⟨S50000, .f32⟩
  | 16 => ⟨S1600000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x1, .f32⟩
  | 53 => ⟨S1600000x128, .f32⟩
  | 54 => ⟨S1600000x128, .f32⟩
  | 55 => ⟨S_, .f32⟩
  | 56 => ⟨S50000x128, .f32⟩
  | 57 => ⟨S1600000x1, .i32⟩
  | 58 => ⟨S50000x128, .f32⟩
  | 59 => ⟨S50000, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x256, .f32⟩
  | 71 => ⟨S50000x2, .f32⟩
  | 72 => ⟨S_, .f32⟩
  | 73 => ⟨S1600000, .f32⟩
  | 74 => ⟨S_, .f32⟩
  | 75 => ⟨S50000, .f32⟩
  | 76 => ⟨S1600000x1, .i32⟩
  | 77 => ⟨S50000, .f32⟩
  | 78 => ⟨S_, .f32⟩
  | 79 => ⟨S50000, .f32⟩
  | 80 => ⟨S50000, .f32⟩
  | 81 => ⟨S_, .f32⟩
  | 82 => ⟨S50000, .f32⟩
  | 83 => ⟨S50000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x2, .f32⟩
  | 112 => ⟨S1600000x1, .f32⟩
  | 113 => ⟨S1600000x2, .f32⟩
  | 114 => ⟨S1600000x2, .f32⟩
  | 115 => ⟨S_, .f32⟩
  | 116 => ⟨S50000x2, .f32⟩
  | 117 => ⟨S1600000x1, .i32⟩
  | 118 => ⟨S50000x2, .f32⟩
  | 119 => ⟨S50000, .f32⟩
  | 120 => ⟨S50000x1, .f32⟩
  | 121 => ⟨S50000x2, .f32⟩
  | 122 => ⟨S50000x2, .f32⟩
  | 123 => ⟨S50000x2, .f32⟩
  | 124 => ⟨S1x2, .f32⟩
  | 125 => ⟨S50000x2, .f32⟩
  | 126 => ⟨S50000x2, .f32⟩
  | 127 => ⟨S50000x2, .f32⟩
  | _ => ⟨S50000x128, .f32⟩

abbrev hbmTy0_1 (i : Nat) : BufTy := match i % 128 with
  | 0 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call0_cst : Ref sig .tc := ⟨.hbm, 67, rfl⟩
abbrev main_call0_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_c_13 : Ref sig .tc := ⟨.hbm, 84, rfl⟩
abbrev main_v60 : Ref sig .tc := ⟨.hbm, 85, rfl⟩
abbrev main_v61 : Ref sig .tc := ⟨.hbm, 86, rfl⟩
abbrev main_c_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_15 : Ref sig .tc := ⟨.hbm, 93, rfl⟩
abbrev main_v67 : Ref sig .tc := ⟨.hbm, 94, rfl⟩
abbrev main_v68 : Ref sig .tc := ⟨.hbm, 95, rfl⟩
abbrev main_c_16 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_17 : Ref sig .tc := ⟨.hbm, 103, rfl⟩
abbrev main_v75 : Ref sig .tc := ⟨.hbm, 104, rfl⟩
abbrev main_v76 : Ref sig .tc := ⟨.hbm, 105, rfl⟩
abbrev main_c_18 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_19 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  bcast_S1600000x1_S1600000x2_0_1 : S1600000x1.BroadcastsInDim S1600000x2 (![0, 1] : Fin 2 → Fin S1600000x2.rank)
  bcast_S_S50000x2 : S_.BroadcastsInDim S50000x2 (![] : Fin 0 → Fin S50000x2.rank)
  bcast_S50000x1_S50000x2_0_1 : S50000x1.BroadcastsInDim S50000x2 (![0, 1] : Fin 2 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x128_S128x128_S50000x128_1_0_0_1_n_n_wf : DotDims.WF S50000x128 S128x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x256_S256x2_S50000x2_1_0_0_1_n_n_wf : DotDims.WF S50000x256 S256x2 S50000x2 [1] [0] [0] [1] [] []
  gather_S50000x2_S1600000x1_S1600000x2_1_0_n_n_0_1_12_wf : GatherDims.WF S50000x2 S1600000x1 S1600000x2 [1] [0] [] [0] [] 1 ![1, 2]
  scatter_S50000x2_S1600000x1_S1600000x2_1_0_0_1_wf : ScatterDims.WF S50000x2 S1600000x1 S1600000x2 [1] [0] [0] 1
  dot_S50000x128_S128x2_S50000x2_1_0_0_1_n_n_wf : DotDims.WF S50000x128 S128x2 S50000x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf
def gather_S50000x2_S1600000x1_S1600000x2_1_0_n_n_0_1_12 : GatherDims S50000x2 S1600000x1 S1600000x2 where
  offsetDims := [1]
  collapsedSliceDims := [0]
  operandBatchingDims := []
  startIndicesBatchingDims := []
  startIndexMap := [0]
  indexVectorDim := 1
  sliceSizes := ![1, 2]
  wf := gather_S50000x2_S1600000x1_S1600000x2_1_0_n_n_0_1_12_wf
def scatter_S50000x2_S1600000x1_S1600000x2_1_0_0_1 : ScatterDims S50000x2 S1600000x1 S1600000x2 where
  updateWindowDims := [1]
  insertedWindowDims := [0]
  scatterDimsToOperandDims := [0]
  indexVectorDim := 1
  wf := scatter_S50000x2_S1600000x1_S1600000x2_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.Spec.lean ====
/-
  The arithmetic of the graph-convolution network, stated once over plain matrices of extended reals and
  with no program in sight: the matrix product as a sum over the contracted index, and the two pointwise
  combinations the network applies after each aggregation step — "aggregate + self term · self weight + bias",
  clipped below at zero after the first layer, and with the dense residual added after the second. The self
  weight is a one-column matrix (one number per row) and the bias a one-row matrix (one number per column).
-/
import Idealize.ShloMosaic.PureOps.Ideal
import Idealize.ShloMosaic.Lib.ValueIdx

noncomputable section

namespace Cert.Spec

open Idealize.ShloMosaic Idealize.ShloMosaic.ValueIdx

/-- An `a × b` matrix of extended reals. -/
abbrev Mat (a b : ℕ) : Type := (⟨2, ![a, b]⟩ : Shape).Idx → EReal

/-- The row coordinate of a matrix index. -/
abbrev rowOf {a b : ℕ} (i : (⟨2, ![a, b]⟩ : Shape).Idx) : Fin a := ⟨(i 0).val, idx2_lt0 i⟩
/-- The column coordinate of a matrix index. -/
abbrev colOf {a b : ℕ} (i : (⟨2, ![a, b]⟩ : Shape).Idx) : Fin b := ⟨(i 1).val, idx2_lt1 i⟩

/-- The matrix product: entry `(r, c)` is the sum over `k` of `x[r, k] · w[k, c]`. -/
def mm {N K C : ℕ} (x : Mat N K) (w : Mat K C) : Mat N C :=
  fun i => ∑ k : Fin K, x (ix2 (rowOf i) k) * w (ix2 k (colOf i))

/-- After the first aggregation: `max (agg + lin · nrm[row] + b[col]) 0`, entry by entry. -/
def combRelu {N C : ℕ} (agg lin : Mat N C) (nrm : Mat N 1) (b : Mat 1 C) : Mat N C :=
  fun i => max (agg i + lin i * nrm (ix2 (rowOf i) (0 : Fin 1)) + b (ix2 (0 : Fin 1) (colOf i))) (Ideal.ofBits .f32 0x00000000#32)

/-- After the second aggregation: `agg + lin · nrm[row] + b[col] + skip`, entry by entry. -/
def combSkip {N C : ℕ} (agg lin : Mat N C) (nrm : Mat N 1) (b : Mat 1 C) (skip : Mat N C) : Mat N C :=
  fun i => agg i + lin i * nrm (ix2 (rowOf i) (0 : Fin 1)) + b (ix2 (0 : Fin 1) (colOf i)) + skip i

end Cert.Spec

end
-- ==== Proof.KV.lean ====
/-
  The kernel program's intermediate arrays, each written as ONE function of the program's seven arguments, at the
  exact (extended-real) reading: the host operations are the printed ones, applied in the printed order, and each
  of the five kernel launches is replaced by the whole-array function it computes (three matrix products and the
  two pointwise combinations of `Spec`). The names follow the program's own value numbers.
  `x0` node features, `x1` the edge list (row 0 sources, row 1 destinations), `x2`/`x3` first layer weight and
  bias, `x4`/`x5` second layer weight and bias, `x6` the dense residual's weight.
-/
import proofs.«141270_j15556371546755_1_alg».proof.KernelIdeal
import proofs.«141270_j15556371546755_1_alg».proof.Proof.Gen.KernelIdeal
import proofs.«141270_j15556371546755_1_alg».proof.Proof.Spec

noncomputable section

namespace Cert.KernelIdeal.KV

open Cert.KernelIdeal Cert.KernelIdeal.Facts₀ Cert.KernelIdeal.Facts Idealize.ShloMosaic Idealize.ShloMosaic.TcCoe

/-- A float array of the given shape, at the exact reading. -/
abbrev T (s : Shape) : Type := (⟨s, .f32⟩ : BufTy).Contents (Elt Ideal)
/-- A 32-bit integer array of the given shape. -/
abbrev TI (s : Shape) : Type := (⟨s, .i32⟩ : BufTy).Contents (Elt Ideal)

variable (x0 : T S50000x128) (x1 : TI S2x1600000) (x2 : T S128x128) (x3 : T S128) (x4 : T S256x2) (x5 : T S2) (x6 : T S128x2)

/-- The edges' source nodes. -/
def v1 : TI S1600000 :=
  shapeCast _ (extractStridedSlice S1x1600000 ![0, 0] x1 slices_S2x1600000_S1x1600000_0_0) shapeCasts_S1x1600000_S1600000
/-- The edges' destination nodes. -/
def v3 : TI S1600000 :=
  shapeCast _ (extractStridedSlice S1x1600000 ![1, 0] x1 slices_S2x1600000_S1x1600000_1_0) shapeCasts_S1x1600000_S1600000
/-- The destinations as a column of scatter indices. -/
def v6 : TI S1600000x1 := broadcastInDim S1600000x1 ![0] bcast_S1600000_S1600000x1_0 (v3 x1)
/-- In-degree (number of edges arriving at each node). -/
def v7 : T S50000 :=
  Host.scatterAdd (F := Ideal) scatter_S50000_S1600000x1_S1600000_n_0_0_1
    (broadcastInDim S50000 ![] bcast_S_S50000 (constant (F := Ideal) S_ .f32 0x00000000#32)) (v6 x1)
    (broadcastInDim S1600000 ![] bcast_S_S1600000 (constant (F := Ideal) S_ .f32 0x3F800000#32))
/-- `(degree + 1) ^ (-1/2)`. -/
def v11 : T S50000 :=
  Host.powf (F := Ideal) (addf (F := Ideal) (φ := .f32) (v7 x1) (broadcastInDim S50000 ![] bcast_S_S50000 (constant (F := Ideal) S_ .f32 0x3F800000#32)))
    (broadcastInDim S50000 ![] bcast_S_S50000 (constant (F := Ideal) S_ .f32 0xBF000000#32))
/-- A node list with negative entries wrapped by the node count (jnp's index normalisation), as a column. -/
def wrapCol (v : TI S1600000) : TI S1600000x1 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 50000#32))) v)
/-- The wrapped sources, as a column of gather indices. -/
def v17 : TI S1600000x1 := wrapCol (v1 x1)
/-- Each edge's weight `dinv[src] · dinv[dst]`, as a column. -/
def v27 : T S1600000x1 :=
  broadcastInDim S1600000x1 ![0] bcast_S1600000_S1600000x1_0
    (mulf (F := Ideal) (φ := .f32) (Host.gather gather_S50000_S1600000x1_S1600000_n_0_n_n_0_1_1 (v11 x1) (v17 x1))
      (Host.gather gather_S50000_S1600000x1_S1600000_n_0_n_n_0_1_1 (v11 x1) (wrapCol (v3 x1))))
/-- Each node's self weight `dinv²`, as a column. -/
def v29 : T S50000x1 := shapeCast _ (mulf (F := Ideal) (φ := .f32) (v11 x1) (v11 x1)) shapeCasts_S50000_S50000x1
/-- First layer's linear map (kernel launch 0). -/
def v30 : T S50000x128 := Spec.mm (N := 50000) (K := 128) (C := 128) x0 x2
/-- The edge weights laid across 128 columns. -/
def v38 : T S1600000x128 := broadcastInDim S1600000x128 ![0, 1] bcast_S1600000x1_S1600000x128_0_1 (v27 x1)
/-- Weighted messages of a 128-wide node array summed at their destinations. -/
def aggregate (h : T S50000x128) : T S50000x128 :=
  Host.scatterAdd (F := Ideal) scatter_S50000x128_S1600000x1_S1600000x128_1_0_0_1
    (broadcastInDim S50000x128 ![] bcast_S_S50000x128 (constant (F := Ideal) S_ .f32 0x00000000#32)) (v6 x1)
    (mulf (F := Ideal) (φ := .f32) (Host.gather gather_S50000x128_S1600000x1_S1600000x128_1_0_n_n_0_1_1128 h (v17 x1)) (v38 x1))
/-- First layer's aggregate. -/
def v42 : T S50000x128 := aggregate x1 (v30 x0 x2)
/-- First layer's bias as a row. -/
def v43 : T S1x128 := shapeCast _ x3 shapeCasts_S128_S1x128
/-- First layer's output (kernel launch 1). -/
def v44 : T S50000x128 := Spec.combRelu (N := 50000) (C := 128) (v42 x0 x1 x2) (v30 x0 x2) (v29 x1) (v43 x3)
/-- Features and first layer's output side by side. -/
def v45 : T S50000x256 :=
  concatenate S50000x256 1 [⟨S50000x128, x0⟩, ⟨S50000x128, v44 x0 x1 x2 x3⟩] concatenates_S50000x128_S50000x128_S50000x256_d1
/-- The padding value (integer zero converted). -/
def padv : T S_ := sitofp (F := Ideal) .f32 (constantI S_ 32 0#32)
/-- Second layer's weight padded with zero columns to width 128. -/
def v46 : T S256x128 := pad S256x128 ![0, 0] ![0, 126] ![0, 0] x4 padv pads_S256x2_S256x128_000_01260 h_S_
/-- Second layer's bias padded to width 128, as a row. -/
def v48 : T S1x128 := shapeCast _ (pad S128 ![0] ![126] ![0] x5 padv pads_S2_S128_01260 h_S_) shapeCasts_S128_S1x128
/-- The residual's weight padded with zero columns to width 128. -/
def v49 : T S128x128 := pad S128x128 ![0, 0] ![0, 126] ![0, 0] x6 padv pads_S128x2_S128x128_000_01260 h_S_
/-- Second layer's linear map (kernel launch 2). -/
def v50 : T S50000x128 := Spec.mm (N := 50000) (K := 256) (C := 128) (v45 x0 x1 x2 x3) (v46 x4)
/-- Second layer's aggregate. -/
def v62 : T S50000x128 := aggregate x1 (v50 x0 x1 x2 x3 x4)
/-- The dense residual (kernel launch 3). -/
def v63 : T S50000x128 := Spec.mm (N := 50000) (K := 128) (C := 128) x0 (v49 x6)
/-- Second layer's output with the residual, 128 wide (kernel launch 4). -/
def v64 : T S50000x128 :=
  Spec.combSkip (N := 50000) (C := 128) (v62 x0 x1 x2 x3 x4) (v50 x0 x1 x2 x3 x4) (v29 x1) (v48 x5) (v63 x0 x6)
/-- The program's result: the first two columns. -/
def v65 : T S50000x2 := extractStridedSlice S50000x2 ![0, 0] (v64 x0 x1 x2 x3 x4 x5 x6) slices_S50000x128_S50000x2_0_0

end Cert.KernelIdeal.KV

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.Reg0.lean ====
/- What one kernel launch leaves in its output array, as one function of the arrays it reads: the first layer's linear map: the 25 row blocks of the product, written back block by block, fill the array with the matrix product of the two operand arrays. -/
import proofs.«141270_j15556371546755_1_alg».proof.Proof.Gen.KernelIdeal.Frame
import proofs.«141270_j15556371546755_1_alg».proof.Proof.Spec
import proofs.«141270_j15556371546755_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The block product at an index -/

/-- The left operand's index, row axis: the output's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's index, column axis: the summation index. -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's index, row axis: the summation index. -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's index, column axis: the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- One block of the product, entry `(p, q)`: the sum over `k` of `x[p, k] · w[k, q]` (the narrowing of the operands
    to the short format is the identity on extended reals, and the accumulator starts at zero). -/
theorem block_entry (x : Vec Ideal S2000x128 .f32) (w : Vec Ideal S128x128 .f32) (p : Fin 2000) (q : Fin 128) :
    k0_pay1 (F := Ideal) x w (ix2 p q) = ∑ k : Fin 128, x (ix2 p k) * w (ix2 k q) := by
  unfold k0_pay1
  show FloatOps.matmul dot_S2000x128_S128x128_S2000x128_1_0_0_1_n_n none (truncf (F := Ideal) .bf16 x bitsLt_bf16_f32) (truncf (F := Ideal) .bf16 w bitsLt_bf16_f32) (constant (F := Ideal) S2000x128 .f32 0x00000000#32) (ix2 p q) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## From the 25 row blocks to the array -/

theorem zero_offsets : (![0, 0] : Fin 2 → Nat) = fun _ => 0 :=
  funext fun a => match a with | ⟨0, _⟩ => rfl | ⟨1, _⟩ => rfl

/-- The block indices at grid point `t`, decided over the 25 points: the row operand and the result sit at row block `t`,
    column block `0`; the weight's block is always the whole weight. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Rows `2000 b … 2000 b + 1999` of the product are the product of those rows of the left operand with the whole right
    operand: if `x` holds these rows of `A` and `w` is `B`, the block product at `j` is the matrix product at the array
    index `i` that `j` names. -/
theorem block_is_rows (A : Spec.Mat 50000 128) (B : Spec.Mat 128 128) (x : Vec Ideal S2000x128 .f32) (w : Vec Ideal S128x128 .f32) (b : ℕ)
    (hx : ∀ (y : S2000x128.Idx) (i : S50000x128.Idx), (i 0).val = b * 2000 + (y 0).val → (i 1).val = (y 1).val → x y = A i)
    (hw : w = B) (j : S2000x128.Idx) (i : S50000x128.Idx)
    (hi0 : (i 0).val = b * 2000 + (j 0).val) (hi1 : (i 1).val = (j 1).val) :
    k0_pay1 (F := Ideal) x w j = Spec.mm A B i := by
  obtain ⟨p, q, rfl⟩ : ∃ (p : Fin 2000) (q : Fin 128), j = ix2 p q := ⟨j 0, j 1, eq_ix2 j⟩
  rw [block_entry, hw]
  unfold Spec.mm
  refine Finset.sum_congr rfl fun k _ => ?_
  have hq : q = Spec.colOf i := Fin.ext hi1.symm
  rw [hx (ix2 p k) (ix2 (Spec.rowOf i) k) hi0 rfl, hq]

/-- The row operand's block at point `t`, entry `y`, is the array at row `2000 t + y₀`, column `y₁`. -/
theorem rows_block (V : (c : Dev nD) → (b : Ref sig .tc) → Buf (Elt Ideal) ((c : Thread nD τ).loc b)) (c : Dev nD) (t : Fin cfg0.N)
    (y : S2000x128.Idx) (i : S50000x128.Idx) (hi0 : (i 0).val = t.val * 2000 + (y 0).val) (hi1 : (i 1).val = (y 1).val) :
    (iblk0 (F := Ideal) V c 0 t : Vec Ideal S2000x128 .f32) y = (V c main_arg0 : S50000x128.Idx → EReal) i := by
  obtain ⟨e0, e1, -, -, -, -⟩ := block_indices t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, hi0]; omega
  | ⟨1, _⟩ => show win0_0.index t (1 : Fin 2) * 128 + 1 * (y 1).val = (i 1).val; rw [e1, hi1]; omega

/-- The weight's block at every point is the weight. -/
theorem weight_block (V : (c : Dev nD) → (b : Ref sig .tc) → Buf (Elt Ideal) ((c : Thread nD τ).loc b)) (c : Dev nD) (t : Fin cfg0.N) :
    (iblk0 (F := Ideal) V c 1 t : Vec Ideal S128x128 .f32) = (V c main_arg2 : S128x128.Idx → EReal) := by
  obtain ⟨-, -, e0, e1, -, -⟩ := block_indices t
  funext y
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- What point `t` writes back is block `t` of the matrix product of the two operand arrays. -/
theorem written_back (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (Spec.mm (N := 50000) (K := 128) (C := 128) (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  obtain ⟨-, -, -, -, e0, e1⟩ := block_indices t
  funext j
  show k0_pay1 (F := Ideal) (iblk0 V c 0 t) (iblk0 V c 1 t) j = Spec.mm (N := 50000) (K := 128) (C := 128) (V c main_arg0) (V c main_arg2) (((cfg0.win 2).blk t).view.emb j)
  refine block_is_rows (V c main_arg0) (V c main_arg2) _ _ t.val (fun y i h0 h1 => rows_block V c t y i h0 h1) (weight_block V c t) j _ ?_ ?_
  · show win0_2.index t (0 : Fin 2) * 2000 + 1 * (j 0).val = t.val * 2000 + (j 0).val; rw [e0]; omega
  · show win0_2.index t (1 : Fin 2) * 128 + 1 * (j 1).val = (j 1).val; rw [e1]; omega

/-- An index of the array is in point `t`'s block iff each coordinate is in the block's range on its axis. -/
theorem in_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every row `r` of the array lies in the block of point `r / 2000`, and every point writes its block back. -/
theorem rows_covered (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  have hN : cfg0.N = 25 := N_0
  have ht : (i 0).val / 2000 < cfg0.N := by rw [hN]; omega
  obtain ⟨-, -, -, -, e0, e1⟩ := block_indices ⟨(i 0).val / 2000, ht⟩
  refine ⟨⟨(i 0).val / 2000, ht⟩, flush0_2 _, ?_⟩
  rw [in_block]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e1]
    omega

/-- The output array after the launch's last grid point, whatever the buffers held when the launch began (`V`). -/
theorem arr (V : (c : Dev nD) → (b : Ref sig .tc) → Buf (Elt Ideal) ((c : Thread nD τ).loc b)) (c : Dev nD) :
    (dat0 (F := Ideal) V c).arrAt 2 cfg0.N = Spec.mm (N := 50000) (K := 128) (C := 128) (V c main_arg0) (V c main_arg2) := by
  exact (dat0 (F := Ideal) V c).arrAt_eq_of_cover 2 (Spec.mm (N := 50000) (K := 128) (C := 128) (V c main_arg0) (V c main_arg2))
    (fun t _ => written_back V c t) rows_covered

end Cert.KernelIdeal.Reg0

end
-- ==== Proof.Reg1.lean ====
/- What one kernel launch leaves in its output array, as one function of the arrays it reads: the first layer's combination. -/
import proofs.«141270_j15556371546755_1_alg».proof.Proof.Gen.KernelIdeal.Frame
import proofs.«141270_j15556371546755_1_alg».proof.Proof.Spec
import proofs.«141270_j15556371546755_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The value the body stores at entry `(p, q)` of a block, from the four blocks it loads: the same-shape casts
    are identities, the one-column block is read at the row, the one-row block at the column. -/
theorem pay_apply (nrm : Vec Ideal S2000x1 .f32) (agg lin : Vec Ideal S2000x128 .f32) (b : Vec Ideal S1x128 .f32)
    (p : Fin 2000) (q : Fin 128) :
    k1_pay1 (F := Ideal) nrm agg lin b (ix2 p q)
      = max (agg (ix2 p q) + lin (ix2 p q) * nrm (ix2 p (0 : Fin 1)) + b (ix2 (0 : Fin 1) q)) (Ideal.ofBits .f32 0x00000000#32) := by
  unfold k1_pay1
  rw [maximumf_apply, addf_apply, addf_apply, mulf_apply, broadcast_apply,
    shapeCast_self, shapeCast_self, shapeCast_self, shapeCast_self,
    Cert.LibColumn.broadcastTo_a1_ab_apply, broadcastTo_1b_ab_apply]
  rfl

theorem zero_off : (![0, 0] : Fin 2 → Nat) = fun _ => 0 := funext fun a => by fin_cases a <;> rfl

/-- The block indices of the five windows, decided over the 25 grid points: the three row-tiled operands move with the
    result's block, the one-row operand stays at its only block, and the result's blocks are the 25 row blocks. -/
theorem idx_facts : ∀ t : Fin cfg1.N,
    win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (0 : Fin 2) ≤ 24
    ∧ win1_4.index t (1 : Fin 2) = 0 :=
  (by decide +kernel : ∀ t : Fin grid1.N, _)

/-- Every one of the 25 row blocks is some point's. -/
theorem idx_onto : ∀ r : Fin 25, ∃ t : Fin cfg1.N, win1_4.index t = ![r.val, 0] :=
  (by decide +kernel : ∀ r : Fin 25, ∃ t : Fin grid1.N, win1_4.index t = ![r.val, 0])

/-- One entry of a stored block against the combination of the whole arrays at an array index `i`, given that each
    loaded block's entry is its array's entry at `i` (the column's at `i`'s row, the row's at `i`'s column). -/
theorem block_apply (nrm : Vec Ideal S2000x1 .f32) (agg lin : Vec Ideal S2000x128 .f32) (b : Vec Ideal S1x128 .f32)
    (A L : Spec.Mat 50000 128) (Nn : Spec.Mat 50000 1) (B : Spec.Mat 1 128) (j : S2000x128.Idx) (i : S50000x128.Idx)
    (hagg : agg j = A i) (hlin : lin j = L i)
    (hnrm : nrm (ix2 (⟨(j 0).val, idx2_lt0 j⟩ : Fin 2000) (0 : Fin 1)) = Nn (ix2 (Spec.rowOf i) (0 : Fin 1)))
    (hb : b (ix2 (0 : Fin 1) (⟨(j 1).val, idx2_lt1 j⟩ : Fin 128)) = B (ix2 (0 : Fin 1) (Spec.colOf i))) :
    k1_pay1 (F := Ideal) nrm agg lin b j = Spec.combRelu A L Nn B i := by
  obtain ⟨p, q, rfl⟩ : ∃ (p : Fin 2000) (q : Fin 128), j = ix2 p q := ⟨j 0, j 1, eq_ix2 j⟩
  rw [pay_apply]
  show _ = max (A i + L i * Nn (ix2 (Spec.rowOf i) (0 : Fin 1)) + B (ix2 (0 : Fin 1) (Spec.colOf i))) (Ideal.ofBits .f32 0x00000000#32)
  rw [← hagg, ← hlin, ← hnrm, ← hb]

/-- What point `t` writes back is block `t` of the combination of the arrays as the launch finds them. -/
theorem flushed_eq (V : (c : Dev nD) → (b : Ref sig .tc) → Buf (Elt Ideal) ((c : Thread nD τ).loc b)) (c : Dev nD) (t : Fin cfg1.N) :
    (dat1 (F := Ideal) V c).flushed 4 t = ((cfg1.win 4).blk t).view.read (Elt Ideal)
      (Spec.combRelu (N := 50000) (C := 128) (V c main_v42) (V c main_v30) (V c main_v29) (V c main_v43)) := by
  show (cfg1.win 4).cut (grid1.coords t) ((dat1 V c).after 4 t) = _
  rw [after1_4]
  unfold out1_4
  rw [View.canon_unit_zero zero_off]
  simp only [View.ld_unit_zero (S := S2000x128) zero_off, View.ld_unit_zero (S := S2000x1) zero_off, View.ld_unit_zero (S := S1x128) zero_off]
  obtain ⟨e00, e01, e10, e11, e20, e21, e30, e31, e40, e41⟩ := idx_facts t
  funext j
  show k1_pay1 (iblk1 V c 2 t) (iblk1 V c 0 t) (iblk1 V c 1 t) (iblk1 V c 3 t) j
    = Spec.combRelu (V c main_v42) (V c main_v30) (V c main_v29) (V c main_v43) (((cfg1.win 4).blk t).view.emb j)
  have hj0 : (j 0).val < 2000 := (j 0).isLt
  have hj1 : (j 1).val < 128 := (j 1).isLt
  refine block_apply _ _ _ _ _ _ _ _ j _ ?_ ?_ ?_ ?_
  · show V c main_v42 (((cfg1.win 0).blk t).view.emb j) = V c main_v42 (((cfg1.win 4).blk t).view.emb j)
    refine congrArg _ (funext fun a => Fin.ext ?_)
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * (j 1).val = win1_4.index t (1 : Fin 2) * 128 + 1 * (j 1).val; omega
  · show V c main_v30 (((cfg1.win 1).blk t).view.emb j) = V c main_v30 (((cfg1.win 4).blk t).view.emb j)
    refine congrArg _ (funext fun a => Fin.ext ?_)
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 128 + 1 * (j 1).val = win1_4.index t (1 : Fin 2) * 128 + 1 * (j 1).val; omega
  · show V c main_v29 (((cfg1.win 2).blk t).view.emb (ix2 (⟨(j 0).val, idx2_lt0 j⟩ : Fin 2000) (0 : Fin 1)))
      = V c main_v29 (ix2 (Spec.rowOf (((cfg1.win 4).blk t).view.emb j)) (0 : Fin 1))
    refine congrArg _ (funext fun a => Fin.ext ?_)
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 1 + 1 * 0 = 0; omega
  · show V c main_v43 (((cfg1.win 3).blk t).view.emb (ix2 (0 : Fin 1) (⟨(j 1).val, idx2_lt1 j⟩ : Fin 128)))
      = V c main_v43 (ix2 (0 : Fin 1) (Spec.colOf (((cfg1.win 4).blk t).view.emb j)))
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega

/-- An index of the array is in point `t`'s block exactly when each coordinate is in the block's range on its axis. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v44).slice (win1_4.rect t)).set ↔ _
  rw [View.set_slice_whole, Rect.mem_set_unit]
  exact Iff.rfl

/-- The 25 blocks of 2000 rows tile the 50000 rows: row `r` lies in block `r / 2000`, and every block is written back. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- The output array after the launch's last grid point, whatever the buffers held when the launch began (`V`). -/
theorem arr (V : (c : Dev nD) → (b : Ref sig .tc) → Buf (Elt Ideal) ((c : Thread nD τ).loc b)) (c : Dev nD) :
    (dat1 (F := Ideal) V c).arrAt 4 cfg1.N = Spec.combRelu (N := 50000) (C := 128) (V c main_v42) (V c main_v30) (V c main_v29) (V c main_v43) := by
  exact (dat1 (F := Ideal) V c).arrAt_eq_of_cover 4 _ (fun t _ => flushed_eq V c t) cover

end Cert.KernelIdeal.Reg1

end
-- ==== Proof.Reg2.lean ====
/- What one kernel launch leaves in its output array, as one function of the arrays it reads: the second layer's linear map. -/
import proofs.«141270_j15556371546755_1_alg».proof.Proof.Gen.KernelIdeal.Frame
import proofs.«141270_j15556371546755_1_alg».proof.Proof.Spec
import proofs.«141270_j15556371546755_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The block product at an index -/

/-- The left operand's index, row axis: the output's row. -/
theorem lhs_row (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- The left operand's index, column axis: the summation index. -/
theorem lhs_col (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- The right operand's index, row axis: the summation index. -/
theorem rhs_row (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- The right operand's index, column axis: the output's column. -/
theorem rhs_col (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- One block of the product, entry `(p, q)`: the sum over `k` of `x[p, k] · w[k, q]` (a reshaping of a shape to itself changes nothing, the narrowing of the
    operands to the short format is the identity on extended reals, and the accumulator starts at zero). -/
theorem block_entry (x : Vec Ideal S2000x256 .f32) (w : Vec Ideal S256x128 .f32) (p : Fin 2000) (q : Fin 128) :
    k2_pay1 (F := Ideal) x w (ix2 p q) = ∑ k : Fin 256, x (ix2 p k) * w (ix2 k q) := by
  unfold k2_pay1
  show FloatOps.matmul dot_S2000x256_S256x128_S2000x128_1_0_0_1_n_n none (truncf (F := Ideal) .bf16 (shapeCast S2000x256 x shapeCasts_S2000x256_S2000x256) bitsLt_bf16_f32) (truncf (F := Ideal) .bf16 (shapeCast S256x128 w shapeCasts_S256x128_S256x128) bitsLt_bf16_f32) (constant (F := Ideal) S2000x128 .f32 0x00000000#32) (ix2 p q) = _
  rw [shapeCast_self x, shapeCast_self w]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_row _ _
    | ⟨1, _⟩ => exact (lhs_col _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_row _ _).trans hk
    | ⟨1, _⟩ => exact rhs_col _ _)
  rw [el, er]
  rfl

/-! ## From the 25 row blocks to the array -/

theorem zero_offsets : (![0, 0] : Fin 2 → Nat) = fun _ => 0 :=
  funext fun a => match a with | ⟨0, _⟩ => rfl | ⟨1, _⟩ => rfl

/-- The block indices at grid point `t`, decided over the 25 points: the row operand and the result sit at row block `t`,
    column block `0`; the weight's block is always the whole weight. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Rows `2000 b … 2000 b + 1999` of the product are the product of those rows of the left operand with the whole right
    operand: if `x` holds these rows of `A` and `w` is `B`, the block product at `j` is the matrix product at the array
    index `i` that `j` names. -/
theorem block_is_rows (A : Spec.Mat 50000 256) (B : Spec.Mat 256 128) (x : Vec Ideal S2000x256 .f32) (w : Vec Ideal S256x128 .f32) (b : ℕ)
    (hx : ∀ (y : S2000x256.Idx) (i : S50000x256.Idx), (i 0).val = b * 2000 + (y 0).val → (i 1).val = (y 1).val → x y = A i)
    (hw : w = B) (j : S2000x128.Idx) (i : S50000x128.Idx)
    (hi0 : (i 0).val = b * 2000 + (j 0).val) (hi1 : (i 1).val = (j 1).val) :
    k2_pay1 (F := Ideal) x w j = Spec.mm A B i := by
  obtain ⟨p, q, rfl⟩ : ∃ (p : Fin 2000) (q : Fin 128), j = ix2 p q := ⟨j 0, j 1, eq_ix2 j⟩
  rw [block_entry, hw]
  unfold Spec.mm
  refine Finset.sum_congr rfl fun k _ => ?_
  have hq : q = Spec.colOf i := Fin.ext hi1.symm
  rw [hx (ix2 p k) (ix2 (Spec.rowOf i) k) hi0 rfl, hq]

/-- The row operand's block at point `t`, entry `y`, is the array at row `2000 t + y₀`, column `y₁`. -/
theorem rows_block (V : (c : Dev nD) → (b : Ref sig .tc) → Buf (Elt Ideal) ((c : Thread nD τ).loc b)) (c : Dev nD) (t : Fin cfg2.N)
    (y : S2000x256.Idx) (i : S50000x256.Idx) (hi0 : (i 0).val = t.val * 2000 + (y 0).val) (hi1 : (i 1).val = (y 1).val) :
    (iblk2 (F := Ideal) V c 0 t : Vec Ideal S2000x256 .f32) y = (V c main_v45 : S50000x256.Idx → EReal) i := by
  obtain ⟨e0, e1, -, -, -, -⟩ := block_indices t
  unfold iblk2
  rw [View.read_apply]
  show V c main_v45 _ = V c main_v45 _
  congr 1
  funext a
  apply Fin.ext
  match a with
  | ⟨0, _⟩ => show win2_0.index t (0 : Fin 2) * 2000 + 1 * (y 0).val = (i 0).val; rw [e0, hi0]; omega
  | ⟨1, _⟩ => show win2_0.index t (1 : Fin 2) * 256 + 1 * (y 1).val = (i 1).val; rw [e1, hi1]; omega

/-- The weight's block at every point is the weight. -/
theorem weight_block (V : (c : Dev nD) → (b : Ref sig .tc) → Buf (Elt Ideal) ((c : Thread nD τ).loc b)) (c : Dev nD) (t : Fin cfg2.N) :
    (iblk2 (F := Ideal) V c 1 t : Vec Ideal S256x128 .f32) = (V c main_v46 : S256x128.Idx → EReal) := by
  obtain ⟨-, -, e0, e1, -, -⟩ := block_indices t
  funext y
  unfold iblk2
  rw [View.read_apply]
  show V c main_v46 _ = V c main_v46 _
  congr 1
  funext a
  apply Fin.ext
  match a with
  | ⟨0, _⟩ => show win2_1.index t (0 : Fin 2) * 256 + 1 * (y 0).val = (y 0).val; rw [e0]; omega
  | ⟨1, _⟩ => show win2_1.index t (1 : Fin 2) * 128 + 1 * (y 1).val = (y 1).val; rw [e1]; omega

/-- What point `t` writes back is block `t` of the matrix product of the two operand arrays. -/
theorem written_back (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal) (Spec.mm (N := 50000) (K := 256) (C := 128) (V c main_v45) (V c main_v46)) := by
  show (cfg2.win 2).cut (grid2.coords t) ((dat2 V c).after 2 t) = _
  rw [after2_2]
  unfold out2_2
  rw [View.canon_unit_zero zero_offsets]
  simp only [View.ld_unit_zero (S := S2000x256) zero_offsets, View.ld_unit_zero (S := S256x128) zero_offsets]
  obtain ⟨-, -, -, -, e0, e1⟩ := block_indices t
  funext j
  show k2_pay1 (F := Ideal) (iblk2 V c 0 t) (iblk2 V c 1 t) j = Spec.mm (N := 50000) (K := 256) (C := 128) (V c main_v45) (V c main_v46) (((cfg2.win 2).blk t).view.emb j)
  refine block_is_rows (V c main_v45) (V c main_v46) _ _ t.val (fun y i h0 h1 => rows_block V c t y i h0 h1) (weight_block V c t) j _ ?_ ?_
  · show win2_2.index t (0 : Fin 2) * 2000 + 1 * (j 0).val = t.val * 2000 + (j 0).val; rw [e0]; omega
  · show win2_2.index t (1 : Fin 2) * 128 + 1 * (j 1).val = (j 1).val; rw [e1]; omega

/-- An index of the array is in point `t`'s block iff each coordinate is in the block's range on its axis. -/
theorem in_block (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v50).slice (win2_2.rect t)).set ↔ _
  rw [View.set_slice_whole, Rect.mem_set_unit]
  exact Iff.rfl

/-- Every row `r` of the array lies in the block of point `r / 2000`, and every point writes its block back. -/
theorem rows_covered (i : S50000x128.Idx) :
    ∃ t : Fin cfg2.N, (cfg2.win 2).flush t = true ∧ i ∈ ((cfg2.win 2).blk t).view.set := by
  have hi0 : (i 0).val < 50000 := idx2_lt0 i
  have hi1 : (i 1).val < 128 := idx2_lt1 i
  have hN : cfg2.N = 25 := N_2
  have ht : (i 0).val / 2000 < cfg2.N := by rw [hN]; omega
  obtain ⟨-, -, -, -, e0, e1⟩ := block_indices ⟨(i 0).val / 2000, ht⟩
  refine ⟨⟨(i 0).val / 2000, ht⟩, flush2_2 _, ?_⟩
  rw [in_block]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win2_2.index ⟨(i 0).val / 2000, ht⟩ (1 : Fin 2) * 128 ≤ (i 1).val ∧ (i 1).val < win2_2.index ⟨(i 0).val / 2000, ht⟩ (1 : Fin 2) * 128 + 128
    rw [e1]
    omega

/-- The output array after the launch's last grid point, whatever the buffers held when the launch began (`V`). -/
theorem arr (V : (c : Dev nD) → (b : Ref sig .tc) → Buf (Elt Ideal) ((c : Thread nD τ).loc b)) (c : Dev nD) :
    (dat2 (F := Ideal) V c).arrAt 2 cfg2.N = Spec.mm (N := 50000) (K := 256) (C := 128) (V c main_v45) (V c main_v46) := by
  exact (dat2 (F := Ideal) V c).arrAt_eq_of_cover 2 (Spec.mm (N := 50000) (K := 256) (C := 128) (V c main_v45) (V c main_v46))
    (fun t _ => written_back V c t) rows_covered

end Cert.KernelIdeal.Reg2

end
-- ==== Proof.Reg3.lean ====
/- What one kernel launch leaves in its output array, as one function of the arrays it reads: the dense residual. -/
import proofs.«141270_j15556371546755_1_alg».proof.Proof.Gen.KernelIdeal.Frame
import proofs.«141270_j15556371546755_1_alg».proof.Proof.Spec
import proofs.«141270_j15556371546755_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The block product at an index -/

/-- The left operand's index, row axis: the output's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's index, column axis: the summation index. -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's index, row axis: the summation index. -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's index, column axis: the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- One block of the product, entry `(p, q)`: the sum over `k` of `x[p, k] · w[k, q]` (a reshaping of a shape to itself changes nothing, the narrowing of the
    operands to the short format is the identity on extended reals, and the accumulator starts at zero). -/
theorem block_entry (x : Vec Ideal S2000x128 .f32) (w : Vec Ideal S128x128 .f32) (p : Fin 2000) (q : Fin 128) :
    k3_pay1 (F := Ideal) x w (ix2 p q) = ∑ k : Fin 128, x (ix2 p k) * w (ix2 k q) := by
  unfold k3_pay1
  show FloatOps.matmul dot_S2000x128_S128x128_S2000x128_1_0_0_1_n_n none (truncf (F := Ideal) .bf16 x bitsLt_bf16_f32) (truncf (F := Ideal) .bf16 (shapeCast S128x128 w shapeCasts_S128x128_S128x128) bitsLt_bf16_f32) (constant (F := Ideal) S2000x128 .f32 0x00000000#32) (ix2 p q) = _
  rw [shapeCast_self w]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## From the 25 row blocks to the array -/

theorem zero_offsets : (![0, 0] : Fin 2 → Nat) = fun _ => 0 :=
  funext fun a => match a with | ⟨0, _⟩ => rfl | ⟨1, _⟩ => rfl

/-- The block indices at grid point `t`, decided over the 25 points: the row operand and the result sit at row block `t`,
    column block `0`; the weight's block is always the whole weight. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Rows `2000 b … 2000 b + 1999` of the product are the product of those rows of the left operand with the whole right
    operand: if `x` holds these rows of `A` and `w` is `B`, the block product at `j` is the matrix product at the array
    index `i` that `j` names. -/
theorem block_is_rows (A : Spec.Mat 50000 128) (B : Spec.Mat 128 128) (x : Vec Ideal S2000x128 .f32) (w : Vec Ideal S128x128 .f32) (b : ℕ)
    (hx : ∀ (y : S2000x128.Idx) (i : S50000x128.Idx), (i 0).val = b * 2000 + (y 0).val → (i 1).val = (y 1).val → x y = A i)
    (hw : w = B) (j : S2000x128.Idx) (i : S50000x128.Idx)
    (hi0 : (i 0).val = b * 2000 + (j 0).val) (hi1 : (i 1).val = (j 1).val) :
    k3_pay1 (F := Ideal) x w j = Spec.mm A B i := by
  obtain ⟨p, q, rfl⟩ : ∃ (p : Fin 2000) (q : Fin 128), j = ix2 p q := ⟨j 0, j 1, eq_ix2 j⟩
  rw [block_entry, hw]
  unfold Spec.mm
  refine Finset.sum_congr rfl fun k _ => ?_
  have hq : q = Spec.colOf i := Fin.ext hi1.symm
  rw [hx (ix2 p k) (ix2 (Spec.rowOf i) k) hi0 rfl, hq]

/-- The row operand's block at point `t`, entry `y`, is the array at row `2000 t + y₀`, column `y₁`. -/
theorem rows_block (V : (c : Dev nD) → (b : Ref sig .tc) → Buf (Elt Ideal) ((c : Thread nD τ).loc b)) (c : Dev nD) (t : Fin cfg3.N)
    (y : S2000x128.Idx) (i : S50000x128.Idx) (hi0 : (i 0).val = t.val * 2000 + (y 0).val) (hi1 : (i 1).val = (y 1).val) :
    (iblk3 (F := Ideal) V c 0 t : Vec Ideal S2000x128 .f32) y = (V c main_arg0 : S50000x128.Idx → EReal) i := by
  obtain ⟨e0, e1, -, -, -, -⟩ := block_indices t
  unfold iblk3
  rw [View.read_apply]
  show V c main_arg0 _ = V c main_arg0 _
  congr 1
  funext a
  apply Fin.ext
  match a with
  | ⟨0, _⟩ => show win3_0.index t (0 : Fin 2) * 2000 + 1 * (y 0).val = (i 0).val; rw [e0, hi0]; omega
  | ⟨1, _⟩ => show win3_0.index t (1 : Fin 2) * 128 + 1 * (y 1).val = (i 1).val; rw [e1, hi1]; omega

/-- The weight's block at every point is the weight. -/
theorem weight_block (V : (c : Dev nD) → (b : Ref sig .tc) → Buf (Elt Ideal) ((c : Thread nD τ).loc b)) (c : Dev nD) (t : Fin cfg3.N) :
    (iblk3 (F := Ideal) V c 1 t : Vec Ideal S128x128 .f32) = (V c main_v49 : S128x128.Idx → EReal) := by
  obtain ⟨-, -, e0, e1, -, -⟩ := block_indices t
  funext y
  unfold iblk3
  rw [View.read_apply]
  show V c main_v49 _ = V c main_v49 _
  congr 1
  funext a
  apply Fin.ext
  match a with
  | ⟨0, _⟩ => show win3_1.index t (0 : Fin 2) * 128 + 1 * (y 0).val = (y 0).val; rw [e0]; omega
  | ⟨1, _⟩ => show win3_1.index t (1 : Fin 2) * 128 + 1 * (y 1).val = (y 1).val; rw [e1]; omega

/-- What point `t` writes back is block `t` of the matrix product of the two operand arrays. -/
theorem written_back (V : (c : Dev nD) → (b : Ref sig .tc) → Buf (Elt Ideal) ((c : Thread nD τ).loc b)) (c : Dev nD) (t : Fin cfg3.N) :
    (dat3 (F := Ideal) V c).flushed 2 t = ((cfg3.win 2).blk t).view.read (Elt Ideal) (Spec.mm (N := 50000) (K := 128) (C := 128) (V c main_arg0) (V c main_v49)) := by
  show (cfg3.win 2).cut (grid3.coords t) ((dat3 V c).after 2 t) = _
  rw [after3_2]
  unfold out3_2
  rw [View.canon_unit_zero zero_offsets]
  simp only [View.ld_unit_zero (S := S2000x128) zero_offsets, View.ld_unit_zero (S := S128x128) zero_offsets]
  obtain ⟨-, -, -, -, e0, e1⟩ := block_indices t
  funext j
  show k3_pay1 (F := Ideal) (iblk3 V c 0 t) (iblk3 V c 1 t) j = Spec.mm (N := 50000) (K := 128) (C := 128) (V c main_arg0) (V c main_v49) (((cfg3.win 2).blk t).view.emb j)
  refine block_is_rows (V c main_arg0) (V c main_v49) _ _ t.val (fun y i h0 h1 => rows_block V c t y i h0 h1) (weight_block V c t) j _ ?_ ?_
  · show win3_2.index t (0 : Fin 2) * 2000 + 1 * (j 0).val = t.val * 2000 + (j 0).val; rw [e0]; omega
  · show win3_2.index t (1 : Fin 2) * 128 + 1 * (j 1).val = (j 1).val; rw [e1]; omega

/-- An index of the array is in point `t`'s block iff each coordinate is in the block's range on its axis. -/
theorem in_block (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v63).slice (win3_2.rect t)).set ↔ _
  rw [View.set_slice_whole, Rect.mem_set_unit]
  exact Iff.rfl

/-- Every row `r` of the array lies in the block of point `r / 2000`, and every point writes its block back. -/
theorem rows_covered (i : S50000x128.Idx) :
    ∃ t : Fin cfg3.N, (cfg3.win 2).flush t = true ∧ i ∈ ((cfg3.win 2).blk t).view.set := by
  have hi0 : (i 0).val < 50000 := idx2_lt0 i
  have hi1 : (i 1).val < 128 := idx2_lt1 i
  have hN : cfg3.N = 25 := N_3
  have ht : (i 0).val / 2000 < cfg3.N := by rw [hN]; omega
  obtain ⟨-, -, -, -, e0, e1⟩ := block_indices ⟨(i 0).val / 2000, ht⟩
  refine ⟨⟨(i 0).val / 2000, ht⟩, flush3_2 _, ?_⟩
  rw [in_block]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win3_2.index ⟨(i 0).val / 2000, ht⟩ (1 : Fin 2) * 128 ≤ (i 1).val ∧ (i 1).val < win3_2.index ⟨(i 0).val / 2000, ht⟩ (1 : Fin 2) * 128 + 128
    rw [e1]
    omega

/-- The output array after the launch's last grid point, whatever the buffers held when the launch began (`V`). -/
theorem arr (V : (c : Dev nD) → (b : Ref sig .tc) → Buf (Elt Ideal) ((c : Thread nD τ).loc b)) (c : Dev nD) :
    (dat3 (F := Ideal) V c).arrAt 2 cfg3.N = Spec.mm (N := 50000) (K := 128) (C := 128) (V c main_arg0) (V c main_v49) := by
  exact (dat3 (F := Ideal) V c).arrAt_eq_of_cover 2 (Spec.mm (N := 50000) (K := 128) (C := 128) (V c main_arg0) (V c main_v49))
    (fun t _ => written_back V c t) rows_covered

end Cert.KernelIdeal.Reg3

end
-- ==== Proof.Reg4.lean ====
/- What one kernel launch leaves in its output array, as one function of the arrays it reads: the second layer's combination with the residual. -/
import proofs.«141270_j15556371546755_1_alg».proof.Proof.Gen.KernelIdeal.Frame
import proofs.«141270_j15556371546755_1_alg».proof.Proof.Spec
import proofs.«141270_j15556371546755_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg4

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The value the body stores at entry `(p, q)` of a block, from the five blocks it loads: the same-shape casts
    are identities, the one-column block is read at the row, the one-row block at the column, and the residual block
    is added last. -/
theorem pay_apply (nrm : Vec Ideal S2000x1 .f32) (agg lin : Vec Ideal S2000x128 .f32) (b : Vec Ideal S1x128 .f32)
    (skip : Vec Ideal S2000x128 .f32) (p : Fin 2000) (q : Fin 128) :
    k4_pay1 (F := Ideal) nrm agg lin b skip (ix2 p q)
      = agg (ix2 p q) + lin (ix2 p q) * nrm (ix2 p (0 : Fin 1)) + b (ix2 (0 : Fin 1) q) + skip (ix2 p q) := by
  unfold k4_pay1
  rw [addf_apply, addf_apply, addf_apply, mulf_apply,
    shapeCast_self, shapeCast_self, shapeCast_self, shapeCast_self, shapeCast_self,
    Cert.LibColumn.broadcastTo_a1_ab_apply, broadcastTo_1b_ab_apply]

theorem zero_off : (![0, 0] : Fin 2 → Nat) = fun _ => 0 := funext fun a => by fin_cases a <;> rfl

/-- The block indices of the six windows, decided over the 25 grid points: the four row-tiled operands move with the
    result's block, the one-row operand stays at its only block, and the result's blocks are the 25 row blocks. -/
theorem idx_facts : ∀ t : Fin cfg4.N,
    win4_0.index t (0 : Fin 2) = win4_5.index t (0 : Fin 2)
    ∧ win4_0.index t (1 : Fin 2) = 0
    ∧ win4_1.index t (0 : Fin 2) = win4_5.index t (0 : Fin 2)
    ∧ win4_1.index t (1 : Fin 2) = 0
    ∧ win4_2.index t (0 : Fin 2) = win4_5.index t (0 : Fin 2)
    ∧ win4_2.index t (1 : Fin 2) = 0
    ∧ win4_3.index t (0 : Fin 2) = 0
    ∧ win4_3.index t (1 : Fin 2) = 0
    ∧ win4_4.index t (0 : Fin 2) = win4_5.index t (0 : Fin 2)
    ∧ win4_4.index t (1 : Fin 2) = 0
    ∧ win4_5.index t (0 : Fin 2) ≤ 24
    ∧ win4_5.index t (1 : Fin 2) = 0 :=
  (by decide +kernel : ∀ t : Fin grid4.N, _)

/-- Every one of the 25 row blocks is some point's. -/
theorem idx_onto : ∀ r : Fin 25, ∃ t : Fin cfg4.N, win4_5.index t = ![r.val, 0] :=
  (by decide +kernel : ∀ r : Fin 25, ∃ t : Fin grid4.N, win4_5.index t = ![r.val, 0])

/-- One entry of a stored block against the combination of the whole arrays at an array index `i`, given that each
    loaded block's entry is its array's entry at `i` (the column's at `i`'s row, the row's at `i`'s column). -/
theorem block_apply (nrm : Vec Ideal S2000x1 .f32) (agg lin : Vec Ideal S2000x128 .f32) (b : Vec Ideal S1x128 .f32)
    (skip : Vec Ideal S2000x128 .f32)
    (A L : Spec.Mat 50000 128) (Nn : Spec.Mat 50000 1) (B : Spec.Mat 1 128) (K : Spec.Mat 50000 128)
    (j : S2000x128.Idx) (i : S50000x128.Idx)
    (hagg : agg j = A i) (hlin : lin j = L i)
    (hnrm : nrm (ix2 (⟨(j 0).val, idx2_lt0 j⟩ : Fin 2000) (0 : Fin 1)) = Nn (ix2 (Spec.rowOf i) (0 : Fin 1)))
    (hb : b (ix2 (0 : Fin 1) (⟨(j 1).val, idx2_lt1 j⟩ : Fin 128)) = B (ix2 (0 : Fin 1) (Spec.colOf i)))
    (hskip : skip j = K i) :
    k4_pay1 (F := Ideal) nrm agg lin b skip j = Spec.combSkip A L Nn B K i := by
  obtain ⟨p, q, rfl⟩ : ∃ (p : Fin 2000) (q : Fin 128), j = ix2 p q := ⟨j 0, j 1, eq_ix2 j⟩
  rw [pay_apply]
  show _ = A i + L i * Nn (ix2 (Spec.rowOf i) (0 : Fin 1)) + B (ix2 (0 : Fin 1) (Spec.colOf i)) + K i
  rw [← hagg, ← hlin, ← hnrm, ← hb, ← hskip]

/-- What point `t` writes back is block `t` of the combination of the arrays as the launch finds them. -/
theorem flushed_eq (V : (c : Dev nD) → (b : Ref sig .tc) → Buf (Elt Ideal) ((c : Thread nD τ).loc b)) (c : Dev nD) (t : Fin cfg4.N) :
    (dat4 (F := Ideal) V c).flushed 5 t = ((cfg4.win 5).blk t).view.read (Elt Ideal)
      (Spec.combSkip (N := 50000) (C := 128) (V c main_v62) (V c main_v50) (V c main_v29) (V c main_v48) (V c main_v63)) := by
  show (cfg4.win 5).cut (grid4.coords t) ((dat4 V c).after 5 t) = _
  rw [after4_5]
  unfold out4_5
  rw [View.canon_unit_zero zero_off]
  simp only [View.ld_unit_zero (S := S2000x128) zero_off, View.ld_unit_zero (S := S2000x1) zero_off, View.ld_unit_zero (S := S1x128) zero_off]
  obtain ⟨e00, e01, e10, e11, e20, e21, e30, e31, e40, e41, e50, e51⟩ := idx_facts t
  funext j
  show k4_pay1 (iblk4 V c 2 t) (iblk4 V c 0 t) (iblk4 V c 1 t) (iblk4 V c 3 t) (iblk4 V c 4 t) j
    = Spec.combSkip (V c main_v62) (V c main_v50) (V c main_v29) (V c main_v48) (V c main_v63) (((cfg4.win 5).blk t).view.emb j)
  have hj0 : (j 0).val < 2000 := (j 0).isLt
  have hj1 : (j 1).val < 128 := (j 1).isLt
  refine block_apply _ _ _ _ _ _ _ _ _ _ j _ ?_ ?_ ?_ ?_ ?_
  · show V c main_v62 (((cfg4.win 0).blk t).view.emb j) = V c main_v62 (((cfg4.win 5).blk t).view.emb j)
    refine congrArg _ (funext fun a => Fin.ext ?_)
    match a with
    | ⟨0, _⟩ => show win4_0.index t (0 : Fin 2) * 2000 + 1 * (j 0).val = win4_5.index t (0 : Fin 2) * 2000 + 1 * (j 0).val; omega
    | ⟨1, _⟩ => show win4_0.index t (1 : Fin 2) * 128 + 1 * (j 1).val = win4_5.index t (1 : Fin 2) * 128 + 1 * (j 1).val; omega
  · show V c main_v50 (((cfg4.win 1).blk t).view.emb j) = V c main_v50 (((cfg4.win 5).blk t).view.emb j)
    refine congrArg _ (funext fun a => Fin.ext ?_)
    match a with
    | ⟨0, _⟩ => show win4_1.index t (0 : Fin 2) * 2000 + 1 * (j 0).val = win4_5.index t (0 : Fin 2) * 2000 + 1 * (j 0).val; omega
    | ⟨1, _⟩ => show win4_1.index t (1 : Fin 2) * 128 + 1 * (j 1).val = win4_5.index t (1 : Fin 2) * 128 + 1 * (j 1).val; omega
  · show V c main_v29 (((cfg4.win 2).blk t).view.emb (ix2 (⟨(j 0).val, idx2_lt0 j⟩ : Fin 2000) (0 : Fin 1)))
      = V c main_v29 (ix2 (Spec.rowOf (((cfg4.win 5).blk t).view.emb j)) (0 : Fin 1))
    refine congrArg _ (funext fun a => Fin.ext ?_)
    match a with
    | ⟨0, _⟩ => show win4_2.index t (0 : Fin 2) * 2000 + 1 * (j 0).val = win4_5.index t (0 : Fin 2) * 2000 + 1 * (j 0).val; omega
    | ⟨1, _⟩ => show win4_2.index t (1 : Fin 2) * 1 + 1 * 0 = 0; omega
  · show V c main_v48 (((cfg4.win 3).blk t).view.emb (ix2 (0 : Fin 1) (⟨(j 1).val, idx2_lt1 j⟩ : Fin 128)))
      = V c main_v48 (ix2 (0 : Fin 1) (Spec.colOf (((cfg4.win 5).blk t).view.emb j)))
    refine congrArg _ (funext fun a => Fin.ext ?_)
    match a with
    | ⟨0, _⟩ => show win4_3.index t (0 : Fin 2) * 1 + 1 * 0 = 0; omega
    | ⟨1, _⟩ => show win4_3.index t (1 : Fin 2) * 128 + 1 * (j 1).val = win4_5.index t (1 : Fin 2) * 128 + 1 * (j 1).val; omega
  · show V c main_v63 (((cfg4.win 4).blk t).view.emb j) = V c main_v63 (((cfg4.win 5).blk t).view.emb j)
    refine congrArg _ (funext fun a => Fin.ext ?_)
    match a with
    | ⟨0, _⟩ => show win4_4.index t (0 : Fin 2) * 2000 + 1 * (j 0).val = win4_5.index t (0 : Fin 2) * 2000 + 1 * (j 0).val; omega
    | ⟨1, _⟩ => show win4_4.index t (1 : Fin 2) * 128 + 1 * (j 1).val = win4_5.index t (1 : Fin 2) * 128 + 1 * (j 1).val; omega

/-- An index of the array is in point `t`'s block exactly when each coordinate is in the block's range on its axis. -/
theorem mem_blk (t : Fin cfg4.N) (i : S50000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v64).slice (win4_5.rect t)).set ↔ _
  rw [View.set_slice_whole, Rect.mem_set_unit]
  exact Iff.rfl

/-- The 25 blocks of 2000 rows tile the 50000 rows: row `r` lies in block `r / 2000`, and every block is written back. -/
theorem cover (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ := idx_onto ⟨(i 0).val / 2000, by omega⟩
  have q0 : win4_5.index t (0 : Fin 2) = (i 0).val / 2000 := congrFun ht 0
  have q1 : win4_5.index t (1 : Fin 2) = 0 := congrFun ht 1
  refine ⟨t, flush4_5 t, ?_⟩
  rw [mem_blk]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 128 ≤ (i 1).val ∧ (i 1).val < win4_5.index t (1 : Fin 2) * 128 + 128; omega

/-- The output array after the launch's last grid point, whatever the buffers held when the launch began (`V`). -/
theorem arr (V : (c : Dev nD) → (b : Ref sig .tc) → Buf (Elt Ideal) ((c : Thread nD τ).loc b)) (c : Dev nD) :
    (dat4 (F := Ideal) V c).arrAt 5 cfg4.N = Spec.combSkip (N := 50000) (C := 128) (V c main_v62) (V c main_v50) (V c main_v29) (V c main_v48) (V c main_v63) := by
  exact (dat4 (F := Ideal) V c).arrAt_eq_of_cover 5 _ (fun t _ => flushed_eq V c t) cover

end Cert.KernelIdeal.Reg4

end
-- ==== Proof.KHost.lean ====
/-
  The kernel program's buffers at each boundary between host operations and kernel launches, read as the functions
  `KV.v…` of the seven launch arguments: a stretch of host operations applies the printed operations to what the
  boundary before it held; a kernel launch replaces its output array by the whole-array function of its operand
  arrays (the five `arr` theorems) and leaves every other buffer as it was. Walking the boundaries in order gives
  the result buffer at the last one.
-/
import proofs.«141270_j15556371546755_1_alg».proof.Proof.Gen.KernelIdeal.Frame
import proofs.«141270_j15556371546755_1_alg».proof.Proof.KV
import proofs.«141270_j15556371546755_1_alg».proof.Proof.Reg0
import proofs.«141270_j15556371546755_1_alg».proof.Proof.Reg1
import proofs.«141270_j15556371546755_1_alg».proof.Proof.Reg2
import proofs.«141270_j15556371546755_1_alg».proof.Proof.Reg3
import proofs.«141270_j15556371546755_1_alg».proof.Proof.Reg4
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-- The launch contents of the seven arguments on core `c`. -/
abbrev a0 : KV.T S50000x128 := m ((c : Thread nD τ).loc main_arg0)
abbrev a1 : KV.TI S2x1600000 := m ((c : Thread nD τ).loc main_arg1)
abbrev a2 : KV.T S128x128 := m ((c : Thread nD τ).loc main_arg2)
abbrev a3 : KV.T S128 := m ((c : Thread nD τ).loc main_arg3)
abbrev a4 : KV.T S256x2 := m ((c : Thread nD τ).loc main_arg4)
abbrev a5 : KV.T S2 := m ((c : Thread nD τ).loc main_arg5)
abbrev a6 : KV.T S128x2 := m ((c : Thread nD τ).loc main_arg6)

/-! ## After the first stretch of host operations (the edge lists, the normalisation) -/

theorem W1_v1 : W1 m ρ c (Proc.devRef .tc main_v1) = KV.v1 (a1 m c) := by
  show StableHlo.after hostOps0 (W0 m ρ c) (Proc.devRef .tc main_v1) = _
  after_results_simp <;> rfl
theorem W1_v3 : W1 m ρ c (Proc.devRef .tc main_v3) = KV.v3 (a1 m c) := by
  show StableHlo.after hostOps0 (W0 m ρ c) (Proc.devRef .tc main_v3) = _
  after_results_simp <;> rfl
theorem W1_v27 : W1 m ρ c (Proc.devRef .tc main_v27) = KV.v27 (a1 m c) := by
  show StableHlo.after hostOps0 (W0 m ρ c) (Proc.devRef .tc main_v27) = _
  after_results_simp <;> rfl
theorem W1_v29 : W1 m ρ c (Proc.devRef .tc main_v29) = KV.v29 (a1 m c) := by
  show StableHlo.after hostOps0 (W0 m ρ c) (Proc.devRef .tc main_v29) = _
  after_results_simp <;> rfl
theorem W1_a0 : W1 m ρ c (Proc.devRef .tc main_arg0) = a0 m c := by
  show StableHlo.after hostOps0 (W0 m ρ c) (Proc.devRef .tc main_arg0) = _
  after_results_simp <;> rfl
theorem W1_a2 : W1 m ρ c (Proc.devRef .tc main_arg2) = a2 m c := by
  show StableHlo.after hostOps0 (W0 m ρ c) (Proc.devRef .tc main_arg2) = _
  after_results_simp <;> rfl
theorem W1_a3 : W1 m ρ c (Proc.devRef .tc main_arg3) = a3 m c := by
  show StableHlo.after hostOps0 (W0 m ρ c) (Proc.devRef .tc main_arg3) = _
  after_results_simp <;> rfl
theorem W1_a4 : W1 m ρ c (Proc.devRef .tc main_arg4) = a4 m c := by
  show StableHlo.after hostOps0 (W0 m ρ c) (Proc.devRef .tc main_arg4) = _
  after_results_simp <;> rfl
theorem W1_a5 : W1 m ρ c (Proc.devRef .tc main_arg5) = a5 m c := by
  show StableHlo.after hostOps0 (W0 m ρ c) (Proc.devRef .tc main_arg5) = _
  after_results_simp <;> rfl
theorem W1_a6 : W1 m ρ c (Proc.devRef .tc main_arg6) = a6 m c := by
  show StableHlo.after hostOps0 (W0 m ρ c) (Proc.devRef .tc main_arg6) = _
  after_results_simp <;> rfl

/-! ## After launch 0 (the first layer's linear map) -/

theorem W2_v30 : W2 m ρ c (Proc.devRef .tc main_v30) = KV.v30 (a0 m c) (a2 m c) := by
  refine (W2_arr m ρ c 2).trans ((Reg0.arr (V1 m ρ) c).trans ?_)
  show Spec.mm (W1 m ρ c (Proc.devRef .tc main_arg0)) (W1 m ρ c (Proc.devRef .tc main_arg2)) = _
  rw [W1_a0, W1_a2]; rfl
theorem W2_v1 : W2 m ρ c (Proc.devRef .tc main_v1) = KV.v1 (a1 m c) :=
  (W2_of_ne m ρ c main_v1 (by decide)).trans (W1_v1 m ρ c)
theorem W2_v3 : W2 m ρ c (Proc.devRef .tc main_v3) = KV.v3 (a1 m c) :=
  (W2_of_ne m ρ c main_v3 (by decide)).trans (W1_v3 m ρ c)
theorem W2_v27 : W2 m ρ c (Proc.devRef .tc main_v27) = KV.v27 (a1 m c) :=
  (W2_of_ne m ρ c main_v27 (by decide)).trans (W1_v27 m ρ c)
theorem W2_v29 : W2 m ρ c (Proc.devRef .tc main_v29) = KV.v29 (a1 m c) :=
  (W2_of_ne m ρ c main_v29 (by decide)).trans (W1_v29 m ρ c)
theorem W2_a0 : W2 m ρ c (Proc.devRef .tc main_arg0) = a0 m c :=
  (W2_arr m ρ c 0).trans (((dat0 (V1 m ρ) c).arrAt_in 0 rfl _).trans ((A_eq0 (V1 m ρ) c 0).trans (W1_a0 m ρ c)))
theorem W2_a3 : W2 m ρ c (Proc.devRef .tc main_arg3) = a3 m c :=
  (W2_of_ne m ρ c main_arg3 (by decide)).trans (W1_a3 m ρ c)
theorem W2_a4 : W2 m ρ c (Proc.devRef .tc main_arg4) = a4 m c :=
  (W2_of_ne m ρ c main_arg4 (by decide)).trans (W1_a4 m ρ c)
theorem W2_a5 : W2 m ρ c (Proc.devRef .tc main_arg5) = a5 m c :=
  (W2_of_ne m ρ c main_arg5 (by decide)).trans (W1_a5 m ρ c)
theorem W2_a6 : W2 m ρ c (Proc.devRef .tc main_arg6) = a6 m c :=
  (W2_of_ne m ρ c main_arg6 (by decide)).trans (W1_a6 m ρ c)

/-! ## After the second stretch (the first layer's aggregate) -/

theorem W3_v42 : W3 m ρ c (Proc.devRef .tc main_v42) = KV.v42 (a0 m c) (a1 m c) (a2 m c) := by
  show StableHlo.after hostOps1 (W2 m ρ c) (Proc.devRef .tc main_v42) = _
  after_results_simp
  rw [W2_v1, W2_v3, W2_v27, W2_v30]
  rfl
theorem W3_v43 : W3 m ρ c (Proc.devRef .tc main_v43) = KV.v43 (a3 m c) := by
  show StableHlo.after hostOps1 (W2 m ρ c) (Proc.devRef .tc main_v43) = _
  after_results_simp
  rw [W2_a3]
  rfl
theorem W3_v30 : W3 m ρ c (Proc.devRef .tc main_v30) = KV.v30 (a0 m c) (a2 m c) := by
  show StableHlo.after hostOps1 (W2 m ρ c) (Proc.devRef .tc main_v30) = _
  after_results_simp
  exact W2_v30 m ρ c
theorem W3_v29 : W3 m ρ c (Proc.devRef .tc main_v29) = KV.v29 (a1 m c) := by
  show StableHlo.after hostOps1 (W2 m ρ c) (Proc.devRef .tc main_v29) = _
  after_results_simp
  exact W2_v29 m ρ c
theorem W3_v1 : W3 m ρ c (Proc.devRef .tc main_v1) = KV.v1 (a1 m c) := by
  show StableHlo.after hostOps1 (W2 m ρ c) (Proc.devRef .tc main_v1) = _
  after_results_simp
  exact W2_v1 m ρ c
theorem W3_v3 : W3 m ρ c (Proc.devRef .tc main_v3) = KV.v3 (a1 m c) := by
  show StableHlo.after hostOps1 (W2 m ρ c) (Proc.devRef .tc main_v3) = _
  after_results_simp
  exact W2_v3 m ρ c
theorem W3_v27 : W3 m ρ c (Proc.devRef .tc main_v27) = KV.v27 (a1 m c) := by
  show StableHlo.after hostOps1 (W2 m ρ c) (Proc.devRef .tc main_v27) = _
  after_results_simp
  exact W2_v27 m ρ c
theorem W3_a0 : W3 m ρ c (Proc.devRef .tc main_arg0) = a0 m c := by
  show StableHlo.after hostOps1 (W2 m ρ c) (Proc.devRef .tc main_arg0) = _
  after_results_simp
  exact W2_a0 m ρ c
theorem W3_a4 : W3 m ρ c (Proc.devRef .tc main_arg4) = a4 m c := by
  show StableHlo.after hostOps1 (W2 m ρ c) (Proc.devRef .tc main_arg4) = _
  after_results_simp
  exact W2_a4 m ρ c
theorem W3_a5 : W3 m ρ c (Proc.devRef .tc main_arg5) = a5 m c := by
  show StableHlo.after hostOps1 (W2 m ρ c) (Proc.devRef .tc main_arg5) = _
  after_results_simp
  exact W2_a5 m ρ c
theorem W3_a6 : W3 m ρ c (Proc.devRef .tc main_arg6) = a6 m c := by
  show StableHlo.after hostOps1 (W2 m ρ c) (Proc.devRef .tc main_arg6) = _
  after_results_simp
  exact W2_a6 m ρ c

/-! ## After launch 1 (the first layer's output) -/

theorem W4_v44 : W4 m ρ c (Proc.devRef .tc main_v44) = KV.v44 (a0 m c) (a1 m c) (a2 m c) (a3 m c) := by
  refine (W4_arr m ρ c 4).trans ((Reg1.arr (V3 m ρ) c).trans ?_)
  show Spec.combRelu (W3 m ρ c (Proc.devRef .tc main_v42)) (W3 m ρ c (Proc.devRef .tc main_v30))
    (W3 m ρ c (Proc.devRef .tc main_v29)) (W3 m ρ c (Proc.devRef .tc main_v43)) = _
  rw [W3_v42, W3_v30, W3_v29, W3_v43]; rfl
theorem W4_v1 : W4 m ρ c (Proc.devRef .tc main_v1) = KV.v1 (a1 m c) :=
  (W4_of_ne m ρ c main_v1 (by decide)).trans (W3_v1 m ρ c)
theorem W4_v3 : W4 m ρ c (Proc.devRef .tc main_v3) = KV.v3 (a1 m c) :=
  (W4_of_ne m ρ c main_v3 (by decide)).trans (W3_v3 m ρ c)
theorem W4_v27 : W4 m ρ c (Proc.devRef .tc main_v27) = KV.v27 (a1 m c) :=
  (W4_of_ne m ρ c main_v27 (by decide)).trans (W3_v27 m ρ c)
theorem W4_v29 : W4 m ρ c (Proc.devRef .tc main_v29) = KV.v29 (a1 m c) :=
  (W4_arr m ρ c 2).trans (((dat1 (V3 m ρ) c).arrAt_in 2 rfl _).trans ((A_eq1 (V3 m ρ) c 2).trans (W3_v29 m ρ c)))
theorem W4_a0 : W4 m ρ c (Proc.devRef .tc main_arg0) = a0 m c :=
  (W4_of_ne m ρ c main_arg0 (by decide)).trans (W3_a0 m ρ c)
theorem W4_a4 : W4 m ρ c (Proc.devRef .tc main_arg4) = a4 m c :=
  (W4_of_ne m ρ c main_arg4 (by decide)).trans (W3_a4 m ρ c)
theorem W4_a5 : W4 m ρ c (Proc.devRef .tc main_arg5) = a5 m c :=
  (W4_of_ne m ρ c main_arg5 (by decide)).trans (W3_a5 m ρ c)
theorem W4_a6 : W4 m ρ c (Proc.devRef .tc main_arg6) = a6 m c :=
  (W4_of_ne m ρ c main_arg6 (by decide)).trans (W3_a6 m ρ c)

/-! ## After the six short stretches before launch 2 (the concatenation and the three paddings) -/

theorem W10_v45 : W10 m ρ c (Proc.devRef .tc main_v45) = KV.v45 (a0 m c) (a1 m c) (a2 m c) (a3 m c) := by
  show StableHlo.after hostOps2_5 (StableHlo.after hostOps2_4 (StableHlo.after hostOps2_3 (StableHlo.after hostOps2_2
    (StableHlo.after hostOps2_1 (StableHlo.after hostOps2 (W4 m ρ c)))))) (Proc.devRef .tc main_v45) = _
  after_results_simp
  rw [W4_a0, W4_v44]
  rfl
theorem W10_v46 : W10 m ρ c (Proc.devRef .tc main_v46) = KV.v46 (a4 m c) := by
  show StableHlo.after hostOps2_5 (StableHlo.after hostOps2_4 (StableHlo.after hostOps2_3 (StableHlo.after hostOps2_2
    (StableHlo.after hostOps2_1 (StableHlo.after hostOps2 (W4 m ρ c)))))) (Proc.devRef .tc main_v46) = _
  after_results_simp
  rw [W4_a4]
  rfl
theorem W10_v48 : W10 m ρ c (Proc.devRef .tc main_v48) = KV.v48 (a5 m c) := by
  show StableHlo.after hostOps2_5 (StableHlo.after hostOps2_4 (StableHlo.after hostOps2_3 (StableHlo.after hostOps2_2
    (StableHlo.after hostOps2_1 (StableHlo.after hostOps2 (W4 m ρ c)))))) (Proc.devRef .tc main_v48) = _
  after_results_simp
  rw [W4_a5]
  rfl
theorem W10_v49 : W10 m ρ c (Proc.devRef .tc main_v49) = KV.v49 (a6 m c) := by
  show StableHlo.after hostOps2_5 (StableHlo.after hostOps2_4 (StableHlo.after hostOps2_3 (StableHlo.after hostOps2_2
    (StableHlo.after hostOps2_1 (StableHlo.after hostOps2 (W4 m ρ c)))))) (Proc.devRef .tc main_v49) = _
  after_results_simp
  rw [W4_a6]
  rfl
theorem W10_v1 : W10 m ρ c (Proc.devRef .tc main_v1) = KV.v1 (a1 m c) := by
  show StableHlo.after hostOps2_5 (StableHlo.after hostOps2_4 (StableHlo.after hostOps2_3 (StableHlo.after hostOps2_2
    (StableHlo.after hostOps2_1 (StableHlo.after hostOps2 (W4 m ρ c)))))) (Proc.devRef .tc main_v1) = _
  after_results_simp
  exact W4_v1 m ρ c
theorem W10_v3 : W10 m ρ c (Proc.devRef .tc main_v3) = KV.v3 (a1 m c) := by
  show StableHlo.after hostOps2_5 (StableHlo.after hostOps2_4 (StableHlo.after hostOps2_3 (StableHlo.after hostOps2_2
    (StableHlo.after hostOps2_1 (StableHlo.after hostOps2 (W4 m ρ c)))))) (Proc.devRef .tc main_v3) = _
  after_results_simp
  exact W4_v3 m ρ c
theorem W10_v27 : W10 m ρ c (Proc.devRef .tc main_v27) = KV.v27 (a1 m c) := by
  show StableHlo.after hostOps2_5 (StableHlo.after hostOps2_4 (StableHlo.after hostOps2_3 (StableHlo.after hostOps2_2
    (StableHlo.after hostOps2_1 (StableHlo.after hostOps2 (W4 m ρ c)))))) (Proc.devRef .tc main_v27) = _
  after_results_simp
  exact W4_v27 m ρ c
theorem W10_v29 : W10 m ρ c (Proc.devRef .tc main_v29) = KV.v29 (a1 m c) := by
  show StableHlo.after hostOps2_5 (StableHlo.after hostOps2_4 (StableHlo.after hostOps2_3 (StableHlo.after hostOps2_2
    (StableHlo.after hostOps2_1 (StableHlo.after hostOps2 (W4 m ρ c)))))) (Proc.devRef .tc main_v29) = _
  after_results_simp
  exact W4_v29 m ρ c
theorem W10_a0 : W10 m ρ c (Proc.devRef .tc main_arg0) = a0 m c := by
  show StableHlo.after hostOps2_5 (StableHlo.after hostOps2_4 (StableHlo.after hostOps2_3 (StableHlo.after hostOps2_2
    (StableHlo.after hostOps2_1 (StableHlo.after hostOps2 (W4 m ρ c)))))) (Proc.devRef .tc main_arg0) = _
  after_results_simp
  exact W4_a0 m ρ c

/-! ## After launch 2 (the second layer's linear map) -/

theorem W11_v50 : W11 m ρ c (Proc.devRef .tc main_v50) = KV.v50 (a0 m c) (a1 m c) (a2 m c) (a3 m c) (a4 m c) := by
  refine (W11_arr m ρ c 2).trans ((Reg2.arr (V10 m ρ) c).trans ?_)
  show Spec.mm (W10 m ρ c (Proc.devRef .tc main_v45)) (W10 m ρ c (Proc.devRef .tc main_v46)) = _
  rw [W10_v45, W10_v46]; rfl
theorem W11_v1 : W11 m ρ c (Proc.devRef .tc main_v1) = KV.v1 (a1 m c) :=
  (W11_of_ne m ρ c main_v1 (by decide)).trans (W10_v1 m ρ c)
theorem W11_v3 : W11 m ρ c (Proc.devRef .tc main_v3) = KV.v3 (a1 m c) :=
  (W11_of_ne m ρ c main_v3 (by decide)).trans (W10_v3 m ρ c)
theorem W11_v27 : W11 m ρ c (Proc.devRef .tc main_v27) = KV.v27 (a1 m c) :=
  (W11_of_ne m ρ c main_v27 (by decide)).trans (W10_v27 m ρ c)
theorem W11_v29 : W11 m ρ c (Proc.devRef .tc main_v29) = KV.v29 (a1 m c) :=
  (W11_of_ne m ρ c main_v29 (by decide)).trans (W10_v29 m ρ c)
theorem W11_v48 : W11 m ρ c (Proc.devRef .tc main_v48) = KV.v48 (a5 m c) :=
  (W11_of_ne m ρ c main_v48 (by decide)).trans (W10_v48 m ρ c)
theorem W11_v49 : W11 m ρ c (Proc.devRef .tc main_v49) = KV.v49 (a6 m c) :=
  (W11_of_ne m ρ c main_v49 (by decide)).trans (W10_v49 m ρ c)
theorem W11_a0 : W11 m ρ c (Proc.devRef .tc main_arg0) = a0 m c :=
  (W11_of_ne m ρ c main_arg0 (by decide)).trans (W10_a0 m ρ c)

/-! ## After the stretch before launch 3 (the second layer's aggregate) -/

theorem W12_v62 : W12 m ρ c (Proc.devRef .tc main_v62) = KV.v62 (a0 m c) (a1 m c) (a2 m c) (a3 m c) (a4 m c) := by
  show StableHlo.after hostOps3 (W11 m ρ c) (Proc.devRef .tc main_v62) = _
  after_results_simp
  rw [W11_v1, W11_v3, W11_v27, W11_v50]
  rfl
theorem W12_v50 : W12 m ρ c (Proc.devRef .tc main_v50) = KV.v50 (a0 m c) (a1 m c) (a2 m c) (a3 m c) (a4 m c) := by
  show StableHlo.after hostOps3 (W11 m ρ c) (Proc.devRef .tc main_v50) = _
  after_results_simp
  exact W11_v50 m ρ c
theorem W12_v29 : W12 m ρ c (Proc.devRef .tc main_v29) = KV.v29 (a1 m c) := by
  show StableHlo.after hostOps3 (W11 m ρ c) (Proc.devRef .tc main_v29) = _
  after_results_simp
  exact W11_v29 m ρ c
theorem W12_v48 : W12 m ρ c (Proc.devRef .tc main_v48) = KV.v48 (a5 m c) := by
  show StableHlo.after hostOps3 (W11 m ρ c) (Proc.devRef .tc main_v48) = _
  after_results_simp
  exact W11_v48 m ρ c
theorem W12_v49 : W12 m ρ c (Proc.devRef .tc main_v49) = KV.v49 (a6 m c) := by
  show StableHlo.after hostOps3 (W11 m ρ c) (Proc.devRef .tc main_v49) = _
  after_results_simp
  exact W11_v49 m ρ c
theorem W12_a0 : W12 m ρ c (Proc.devRef .tc main_arg0) = a0 m c := by
  show StableHlo.after hostOps3 (W11 m ρ c) (Proc.devRef .tc main_arg0) = _
  after_results_simp
  exact W11_a0 m ρ c

/-! ## After launch 3 (the dense residual) -/

theorem W13_v63 : W13 m ρ c (Proc.devRef .tc main_v63) = KV.v63 (a0 m c) (a6 m c) := by
  refine (W13_arr m ρ c 2).trans ((Reg3.arr (V12 m ρ) c).trans ?_)
  show Spec.mm (W12 m ρ c (Proc.devRef .tc main_arg0)) (W12 m ρ c (Proc.devRef .tc main_v49)) = _
  rw [W12_a0, W12_v49]; rfl
theorem W13_v62 : W13 m ρ c (Proc.devRef .tc main_v62) = KV.v62 (a0 m c) (a1 m c) (a2 m c) (a3 m c) (a4 m c) :=
  (W13_of_ne m ρ c main_v62 (by decide)).trans (W12_v62 m ρ c)
theorem W13_v50 : W13 m ρ c (Proc.devRef .tc main_v50) = KV.v50 (a0 m c) (a1 m c) (a2 m c) (a3 m c) (a4 m c) :=
  (W13_of_ne m ρ c main_v50 (by decide)).trans (W12_v50 m ρ c)
theorem W13_v29 : W13 m ρ c (Proc.devRef .tc main_v29) = KV.v29 (a1 m c) :=
  (W13_of_ne m ρ c main_v29 (by decide)).trans (W12_v29 m ρ c)
theorem W13_v48 : W13 m ρ c (Proc.devRef .tc main_v48) = KV.v48 (a5 m c) :=
  (W13_of_ne m ρ c main_v48 (by decide)).trans (W12_v48 m ρ c)

/-! ## After launch 4 (the second layer's output with the residual), and the final slice -/

theorem W14_v64 : W14 m ρ c (Proc.devRef .tc main_v64)
    = KV.v64 (a0 m c) (a1 m c) (a2 m c) (a3 m c) (a4 m c) (a5 m c) (a6 m c) := by
  refine (W14_arr m ρ c 5).trans ((Reg4.arr (V13 m ρ) c).trans ?_)
  show Spec.combSkip (W13 m ρ c (Proc.devRef .tc main_v62)) (W13 m ρ c (Proc.devRef .tc main_v50))
    (W13 m ρ c (Proc.devRef .tc main_v29)) (W13 m ρ c (Proc.devRef .tc main_v48)) (W13 m ρ c (Proc.devRef .tc main_v63)) = _
  rw [W13_v62, W13_v50, W13_v29, W13_v48, W13_v63]; rfl

/-- THE RESULT BUFFER at the last boundary is the kernel program's result function of the launch arguments. -/
theorem W15_v65 : W15 m ρ c (Proc.devRef .tc main_v65)
    = KV.v65 (a0 m c) (a1 m c) (a2 m c) (a3 m c) (a4 m c) (a5 m c) (a6 m c) := by
  show StableHlo.after hostOps5 (W14 m ρ c) (Proc.devRef .tc main_v65) = _
  after_results_simp
  rw [W14_v64]
  rfl

end Cert.KernelIdeal.KHost

end
-- ==== Proof.BridgeA.lean ====
/-
  The two programs agree, as whole arrays, on everything up to the second layer's input: the edge lists and their
  wrapped columns, the degree normalisation `dinv`, the edge weights, the first layer's linear map (a matrix product
  written back block by block on one side, one `dot_general` on the other: the same sum over the contracted index),
  its aggregate (the same gather, product and scatter-add of equal arrays), its output (the same pointwise
  combination, the self weight read through a column on one side and through two broadcasts on the other), and the
  concatenation that feeds the second layer.
-/
import proofs.«141270_j15556371546755_1_alg».proof.Proof.KV
import proofs.«141270_j15556371546755_1_alg».proof.Proof.LibColumn
import proofs.«141270_j15556371546755_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Cert.KernelIdeal Idealize.ShloMosaic Idealize.ShloMosaic.TcCoe Idealize.ShloMosaic.ValueIdx

variable (x0 : KV.T S50000x128) (x1 : KV.TI S2x1600000) (x2 : KV.T S128x128) (x3 : KV.T S128) (x4 : KV.T S256x2) (x5 : KV.T S2) (x6 : KV.T S128x2)

/-- The bias, kept as a one-row matrix, reads the bias at the column: row-major position `0 · 128 + q` is `q`. -/
theorem biasRow_apply (q : Fin 128) : KV.v43 x3 (ix2 (0 : Fin 1) q) = x3 (ix1 q) := by
  unfold KV.v43
  refine shapeCast_apply x3 _ _ _ ?_
  rw [Shape.rowMajor_val_two, Shape.rowMajor_val_one]
  show q.val = 0 * 128 + q.val
  omega
/-- The self weight, kept as a column, reads `dinv · dinv` at the row. -/
theorem selfCol_apply (p : Fin 50000) :
    KV.v29 x1 (ix2 p (0 : Fin 1)) = KV.v11 x1 (ix1 p) * KV.v11 x1 (ix1 p) := by
  unfold KV.v29
  generalize KV.v11 x1 = d
  rw [Cert.LibColumn.shapeCast_a_a1_apply]
  exact mulf_apply d d (ix1 p)

/-- The destination column the scatters use. -/
theorem dstCol_eq39 : KV.v6 x1 = Cert.ReferenceIdeal.Read.val_main_v39 (F := Ideal) x1 := by
  unfold KV.v6 KV.v3 Cert.ReferenceIdeal.Read.val_main_v39 Cert.ReferenceIdeal.Read.val_main_v3 Cert.ReferenceIdeal.Read.val_main_v2
  rfl
theorem dstCol_eq86 : KV.v6 x1 = Cert.ReferenceIdeal.Read.val_main_v86 (F := Ideal) x1 := by
  unfold KV.v6 KV.v3 Cert.ReferenceIdeal.Read.val_main_v86 Cert.ReferenceIdeal.Read.val_main_v3 Cert.ReferenceIdeal.Read.val_main_v2
  rfl
/-- The wrapped source column the row gathers use. -/
theorem srcCol_eq33 : KV.v17 x1 = Cert.ReferenceIdeal.Read.val_main_v33 (F := Ideal) x1 := by
  unfold KV.v17 KV.wrapCol KV.v1 Cert.ReferenceIdeal.Read.val_main_v33 Cert.ReferenceIdeal.Read.val_main_v32 Cert.ReferenceIdeal.Read.val_main_v29 Cert.ReferenceIdeal.Read.val_main_v31 Cert.ReferenceIdeal.Read.val_main_v28 Cert.ReferenceIdeal.Read.val_main_v30 Cert.ReferenceIdeal.Read.val_main_c_6 Cert.ReferenceIdeal.Read.val_main_c_7 Cert.ReferenceIdeal.Read.val_main_v1 Cert.ReferenceIdeal.Read.val_main_v0
  rfl
theorem srcCol_eq80 : KV.v17 x1 = Cert.ReferenceIdeal.Read.val_main_v80 (F := Ideal) x1 := by
  unfold KV.v17 KV.wrapCol KV.v1 Cert.ReferenceIdeal.Read.val_main_v80 Cert.ReferenceIdeal.Read.val_main_v79 Cert.ReferenceIdeal.Read.val_main_v76 Cert.ReferenceIdeal.Read.val_main_v78 Cert.ReferenceIdeal.Read.val_main_v75 Cert.ReferenceIdeal.Read.val_main_v77 Cert.ReferenceIdeal.Read.val_main_c_17 Cert.ReferenceIdeal.Read.val_main_c_18 Cert.ReferenceIdeal.Read.val_main_v1 Cert.ReferenceIdeal.Read.val_main_v0
  rfl
/-- `(degree + 1) ^ (-1/2)`, which the reference computes twice. -/
theorem dinv_eq12 : KV.v11 x1 = Cert.ReferenceIdeal.Read.val_main_v12 (F := Ideal) x1 := by
  unfold KV.v11 KV.v7 Cert.ReferenceIdeal.Read.val_main_v12 Cert.ReferenceIdeal.Read.val_main_v10 Cert.ReferenceIdeal.Read.val_main_v11 Cert.ReferenceIdeal.Read.val_main_v9 Cert.ReferenceIdeal.Read.val_main_v8 Cert.ReferenceIdeal.Read.val_main_v6 Cert.ReferenceIdeal.Read.val_main_v5 Cert.ReferenceIdeal.Read.val_main_cst Cert.ReferenceIdeal.Read.val_main_cst_0 Cert.ReferenceIdeal.Read.val_main_cst_1 Cert.ReferenceIdeal.Read.val_main_cst_2
  rw [dstCol_eq39]
  unfold Cert.ReferenceIdeal.Read.val_main_v39 Cert.ReferenceIdeal.Read.val_main_v7
  rfl
theorem dinv_eq59 : KV.v11 x1 = Cert.ReferenceIdeal.Read.val_main_v59 (F := Ideal) x1 := by
  unfold KV.v11 KV.v7 Cert.ReferenceIdeal.Read.val_main_v59 Cert.ReferenceIdeal.Read.val_main_v57 Cert.ReferenceIdeal.Read.val_main_v58 Cert.ReferenceIdeal.Read.val_main_v56 Cert.ReferenceIdeal.Read.val_main_v55 Cert.ReferenceIdeal.Read.val_main_v53 Cert.ReferenceIdeal.Read.val_main_v52 Cert.ReferenceIdeal.Read.val_main_cst_9 Cert.ReferenceIdeal.Read.val_main_cst_10 Cert.ReferenceIdeal.Read.val_main_cst_11 Cert.ReferenceIdeal.Read.val_main_cst_12
  rw [dstCol_eq39]
  unfold Cert.ReferenceIdeal.Read.val_main_v39 Cert.ReferenceIdeal.Read.val_main_v54
  rfl
/-- The edge weights as a column, which the reference computes twice. -/
theorem norm_eq35 : KV.v27 x1 = Cert.ReferenceIdeal.Read.val_main_v35 (F := Ideal) x1 := by
  unfold KV.v27
  rw [dinv_eq12]
  unfold KV.v17 KV.wrapCol KV.v1 KV.v3 Cert.ReferenceIdeal.Read.val_main_v35 Cert.ReferenceIdeal.Read.val_main_v27 Cert.ReferenceIdeal.Read.val_main_v19 Cert.ReferenceIdeal.Read.val_main_v26 Cert.ReferenceIdeal.Read.val_main_v18 Cert.ReferenceIdeal.Read.val_main_v25 Cert.ReferenceIdeal.Read.val_main_v17 Cert.ReferenceIdeal.Read.val_main_v24 Cert.ReferenceIdeal.Read.val_main_v14 Cert.ReferenceIdeal.Read.val_main_v16 Cert.ReferenceIdeal.Read.val_main_v21 Cert.ReferenceIdeal.Read.val_main_v23 Cert.ReferenceIdeal.Read.val_main_v13 Cert.ReferenceIdeal.Read.val_main_v15 Cert.ReferenceIdeal.Read.val_main_v20 Cert.ReferenceIdeal.Read.val_main_v22 Cert.ReferenceIdeal.Read.val_main_c Cert.ReferenceIdeal.Read.val_main_c_3 Cert.ReferenceIdeal.Read.val_main_c_4 Cert.ReferenceIdeal.Read.val_main_c_5 Cert.ReferenceIdeal.Read.val_main_v1 Cert.ReferenceIdeal.Read.val_main_v3 Cert.ReferenceIdeal.Read.val_main_v0 Cert.ReferenceIdeal.Read.val_main_v2
  rfl
theorem norm_eq82 : KV.v27 x1 = Cert.ReferenceIdeal.Read.val_main_v82 (F := Ideal) x1 := by
  unfold KV.v27
  rw [dinv_eq59]
  unfold KV.v17 KV.wrapCol KV.v1 KV.v3 Cert.ReferenceIdeal.Read.val_main_v82 Cert.ReferenceIdeal.Read.val_main_v74 Cert.ReferenceIdeal.Read.val_main_v66 Cert.ReferenceIdeal.Read.val_main_v73 Cert.ReferenceIdeal.Read.val_main_v65 Cert.ReferenceIdeal.Read.val_main_v72 Cert.ReferenceIdeal.Read.val_main_v64 Cert.ReferenceIdeal.Read.val_main_v71 Cert.ReferenceIdeal.Read.val_main_v61 Cert.ReferenceIdeal.Read.val_main_v63 Cert.ReferenceIdeal.Read.val_main_v68 Cert.ReferenceIdeal.Read.val_main_v70 Cert.ReferenceIdeal.Read.val_main_v60 Cert.ReferenceIdeal.Read.val_main_v62 Cert.ReferenceIdeal.Read.val_main_v67 Cert.ReferenceIdeal.Read.val_main_v69 Cert.ReferenceIdeal.Read.val_main_c_13 Cert.ReferenceIdeal.Read.val_main_c_14 Cert.ReferenceIdeal.Read.val_main_c_15 Cert.ReferenceIdeal.Read.val_main_c_16 Cert.ReferenceIdeal.Read.val_main_v1 Cert.ReferenceIdeal.Read.val_main_v3 Cert.ReferenceIdeal.Read.val_main_v0 Cert.ReferenceIdeal.Read.val_main_v2
  rfl
/-- The first layer's linear map. -/
theorem lin1_eq : KV.v30 x0 x2 = Cert.ReferenceIdeal.Read.val_main_v4 (F := Ideal) x0 x2 := by
  funext i
  rw [Cert.ReferenceIdeal.Read.val_main_v4_apply]
  unfold KV.v30 Spec.mm
  refine Finset.sum_congr rfl fun k _ => ?_
  have el : ix2 (Spec.rowOf i) k = Cert.ReferenceIdeal.Read.lidx_main_v4 i k :=
    funext fun a => Fin.ext (by match a with | ⟨0, _⟩ => rfl | ⟨1, _⟩ => rfl)
  have er : ix2 k (Spec.colOf i) = Cert.ReferenceIdeal.Read.ridx_main_v4 i k :=
    funext fun a => Fin.ext (by match a with | ⟨0, _⟩ => rfl | ⟨1, _⟩ => rfl)
  rw [el, er]
/-- The first layer's aggregate. -/
theorem agg1_eq : KV.v42 x0 x1 x2 = Cert.ReferenceIdeal.Read.val_main_v40 (F := Ideal) x0 x1 x2 := by
  unfold KV.v42 KV.aggregate KV.v38
  rw [lin1_eq, srcCol_eq33, norm_eq35, dstCol_eq39]
  unfold Cert.ReferenceIdeal.Read.val_main_v40 Cert.ReferenceIdeal.Read.val_main_v37 Cert.ReferenceIdeal.Read.val_main_v34 Cert.ReferenceIdeal.Read.val_main_v36 Cert.ReferenceIdeal.Read.val_main_v38 Cert.ReferenceIdeal.Read.val_main_cst_8
  rfl
/-- The first layer's output. -/
theorem h1_eq : KV.v44 x0 x1 x2 x3 = Cert.ReferenceIdeal.Read.val_main_v49 (F := Ideal) x0 x1 x2 x3 := by
  funext i
  obtain ⟨p, q, rfl⟩ : ∃ (p : Fin 50000) (q : Fin 128), i = ix2 p q := ⟨i 0, i 1, eq_ix2 i⟩
  rw [Cert.ReferenceIdeal.Read.val_main_v49_apply, Cert.ReferenceIdeal.Read.val_main_v48_apply, Cert.ReferenceIdeal.Read.val_main_v45_apply, Cert.ReferenceIdeal.Read.val_main_v44_apply,
    Cert.ReferenceIdeal.Read.val_main_v43_apply, Cert.ReferenceIdeal.Read.val_main_v42_apply, Cert.ReferenceIdeal.Read.val_main_v41_apply, Cert.ReferenceIdeal.Read.val_main_v47_apply,
    Cert.ReferenceIdeal.Read.val_main_v46_apply, Cert.ReferenceIdeal.Read.val_main_call0_v0_apply, Cert.ReferenceIdeal.Read.val_main_call0_cst_apply]
  have e1 : Cert.ReferenceIdeal.Read.idx_main_v42 (Cert.ReferenceIdeal.Read.idx_main_v43 (ix2 p q)) = ix1 p :=
    funext fun a => Fin.ext (by match a with | ⟨0, _⟩ => rfl)
  have e2 : Cert.ReferenceIdeal.Read.idx_main_v46 (Cert.ReferenceIdeal.Read.idx_main_v47 (ix2 p q)) = ix1 q :=
    funext fun a => Fin.ext (by match a with | ⟨0, _⟩ => rfl)
  rw [e1, e2, ← agg1_eq, ← lin1_eq, ← dinv_eq12]
  unfold KV.v44 Spec.combRelu
  have r1 : Spec.rowOf (ix2 p q) = p := rfl
  have c1 : Spec.colOf (ix2 p q) = q := rfl
  rw [r1, c1, selfCol_apply, biasRow_apply]
  simp only [Ideal.addf_def, Ideal.mulf_def, Ideal.maximumf_def, Ideal.ofBits_def]
/-- The second layer's input. -/
theorem cat_eq : KV.v45 x0 x1 x2 x3 = Cert.ReferenceIdeal.Read.val_main_v50 (F := Ideal) x0 x1 x2 x3 := by
  unfold KV.v45 Cert.ReferenceIdeal.Read.val_main_v50
  rw [h1_eq]

end Cert.Bridge

end
-- ==== Proof.LibRows.lean ====
/-
  Whole rows moved by an index list. A GATHER of rows: from an `N × C` matrix and a column of `R` row numbers, the
  `R × C` matrix whose row `e` is the row the `e`-th number names (read signed, clamped into `[0, N − 1]`). A
  SCATTER-ADD of rows, at the exact (extended-real) reading: into an `N × C` matrix, every row `e` of an `R × C`
  update is added onto the row its number names (read signed, NOT clamped: a number outside `[0, N)` drops its row),
  so entry `(n, c)` ends at its old value plus the sum of `upd[e, c]` over the `e` whose number is `n`. Both move
  column `c` to column `c`: that is what lets two programs that differ only in how many columns they carry be
  compared column by column. Stated for any extents; nothing here mentions a program.
-/
import Idealize.ShloMosaic.PureOps.Ideal.Laws
import Idealize.ShloMosaic.Lib.ValueIdx

noncomputable section

namespace Cert.LibRows

open Idealize.ShloMosaic Idealize.ShloMosaic.ValueIdx

variable {α : Type}

/-- The dimension numbers of a row gather (`x[idx]` along axis 0 of a matrix, the indices a column). -/
abbrev rowGatherDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row the `e`-th index names: read signed, clamped into `[0, N − 1]`. -/
def rowAt {N R w : ℕ} (hN : 0 < N) (idx : IVec ⟨2, ![R, 1]⟩ w) (e : Fin R) : Fin N :=
  ⟨min (idx (ix2 e (0 : Fin 1))).toInt.toNat (N - 1), by omega⟩

/-- On the indexed axis the operand coordinate is the clamped row number: the start index map names this axis, the
    slice there has one row, and neither a batching nor an offset coordinate is added. -/
theorem gather_rows_axis0 {N R C w : ℕ} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowGatherDims N R C wf).start (ix2 e c) idx (0 : Fin 2) + (rowGatherDims N R C wf).batchCoord (ix2 e c) (0 : Fin 2)
      + (rowGatherDims N R C wf).offCoord (ix2 e c) (0 : Fin 2) = (rowAt hN idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N R C wf).startIndexMap from List.mem_singleton.mpr rfl)]
  have hsi : (rowGatherDims N R C wf).siIdx (ix2 e c) ⟨List.idxOf (0 : Fin 2) (rowGatherDims N R C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand coordinate is the result's column: the start index map does not name this axis, so
    the slice starts at 0, and the offset coordinate is the result's coordinate on its one offset axis. -/
theorem gather_rows_axis1 {N R C w : ℕ}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowGatherDims N R C wf).start (ix2 e c) idx (1 : Fin 2) + (rowGatherDims N R C wf).batchCoord (ix2 e c) (1 : Fin 2)
      + (rowGatherDims N R C wf).offCoord (ix2 e c) (1 : Fin 2) = c.val := by
  have h10 : (1 : Fin 2) ∉ ([0] : List (Fin 2)) := by decide
  have hmem : (1 : Fin 2) ∈ (rowGatherDims N R C wf).sKept :=
    (GatherDims.mem_sKept _ _).mpr ⟨h10, List.not_mem_nil⟩
  have hstart : (rowGatherDims N R C wf).start (ix2 e c) idx (1 : Fin 2) = 0 := by
    unfold GatherDims.start
    rw [dif_neg (show (1 : Fin 2) ∉ (rowGatherDims N R C wf).startIndexMap from h10)]
  have hoff : (rowGatherDims N R C wf).offCoord (ix2 e c) (1 : Fin 2) = c.val := by
    unfold GatherDims.offCoord
    rw [dif_pos hmem]
    rfl
  rw [GatherDims.batchCoord_eq_zero _ _ _ List.not_mem_nil, hstart, hoff]
  omega

/-- THE ROW GATHER READ AT `(e, c)`: the operand at the named row, same column. -/
theorem gather_rows_apply {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c) = x (ix2 (rowAt hN idx e) c) := by
  unfold Host.gather
  congr 1
  funext a
  refine Fin.ext ?_
  match a with
  | ⟨0, _⟩ => exact gather_rows_axis0 hN wf idx e c
  | ⟨1, _⟩ => exact gather_rows_axis1 wf idx e c

/-- The dimension numbers of a row scatter (`x.at[idx].add(upd)` along axis 0 of a matrix, the indices a column). -/
abbrev rowScatterDims (N R C : ℕ)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The one start-index component of update index `j` is read at row `j 0` of the index column. -/
theorem scatter_rows_siIdx {N R C : ℕ}
    (wf : ScatterDims.WF ⟨2, ![N, C]⟩ ⟨2, ![R, 1]⟩ ⟨2, ![R, C]⟩ [1] [0] [0] 1)
    (j : (⟨2, ![R, C]⟩ : Shape).Idx) (k : Fin (rowScatterDims N R C wf).scatterDimsToOperandDims.length) :
    (rowScatterDims N R C wf).siIdx j k = ix2 ⟨(j 0).val, idx2_lt0 j⟩ (0 : Fin 1) := by
  have hk : k.val = 0 := by
    have := k.isLt
    have hl : (rowScatterDims N R C wf).scatterDimsToOperandDims.length = 1 := rfl
    omega
  funext b; refine Fin.ext ?_
  match b with
  | ⟨0, _⟩ => rfl
  | ⟨1, _⟩ => exact hk

/-- On the row axis the window starts at the index read signed (not clamped). -/
theorem scatter_rows_start0 {N R C w : ℕ}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N R C wf).start j idx (0 : Fin 2) = (idx (ix2 ⟨(j 0).val, idx2_lt0 j⟩ (0 : Fin 1))).toInt := by
  unfold ScatterDims.start
  rw [dif_pos (show (0 : Fin 2) ∈ (rowScatterDims N R C wf).scatterDimsToOperandDims from List.mem_singleton.mpr rfl),
    scatter_rows_siIdx]

/-- On the column axis the window starts at 0: the index vector has no component for it. -/
theorem scatter_rows_start1 {N R C w : ℕ}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N R C wf).start j idx (1 : Fin 2) = 0 := by
  have h10 : (1 : Fin 2) ∉ ([0] : List (Fin 2)) := by decide
  unfold ScatterDims.start
  rw [dif_neg (show (1 : Fin 2) ∉ (rowScatterDims N R C wf).scatterDimsToOperandDims from h10)]

/-- The row axis is an inserted one: no window coordinate is added there. -/
theorem scatter_rows_window0 {N R C : ℕ}
    (wf : ScatterDims.WF ⟨2, ![N, C]⟩ ⟨2, ![R, 1]⟩ ⟨2, ![R, C]⟩ [1] [0] [0] 1)
    (j : (⟨2, ![R, C]⟩ : Shape).Idx) :
    (rowScatterDims N R C wf).window j (0 : Fin 2) = 0 := by
  have h0 : (0 : Fin 2) ∉ (Shape.kept (⟨2, ![N, C]⟩ : Shape) [0]) := by
    simp [Shape.kept, List.mem_filter]
  unfold ScatterDims.window
  rw [dif_neg (show (0 : Fin 2) ∉ (rowScatterDims N R C wf).sKept from h0)]

/-- On the column axis the window coordinate is the update's column. -/
theorem scatter_rows_window1 {N R C : ℕ}
    (wf : ScatterDims.WF ⟨2, ![N, C]⟩ ⟨2, ![R, 1]⟩ ⟨2, ![R, C]⟩ [1] [0] [0] 1)
    (j : (⟨2, ![R, C]⟩ : Shape).Idx) :
    (rowScatterDims N R C wf).window j (1 : Fin 2) = (j 1).val := by
  have h1 : (1 : Fin 2) ∈ (Shape.kept (⟨2, ![N, C]⟩ : Shape) [0]) := by
    simp [Shape.kept, List.mem_filter]
  unfold ScatterDims.window
  rw [dif_pos (show (1 : Fin 2) ∈ (rowScatterDims N R C wf).sKept from h1)]
  rfl

/-- WHERE AN UPDATE ENTRY LANDS: update `(r, q)` goes to operand entry `(n, c)` exactly when row `r`'s index, read
    signed, is `n` and `q = c`; an index outside `[0, N)` lands nowhere. -/
theorem scatter_rows_resultIdx_iff {N R C w : ℕ}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (n : Fin N) (c : Fin C) :
    (rowScatterDims N R C wf).resultIdx? j idx = some (ix2 n c) ↔
      (idx (ix2 ⟨(j 0).val, idx2_lt0 j⟩ (0 : Fin 1))).toInt = (n.val : ℤ) ∧ (j 1).val = c.val := by
  have hs0 := scatter_rows_start0 wf idx j
  have hs1 := scatter_rows_start1 wf idx j
  have hw0 := scatter_rows_window0 wf j
  have hw1 := scatter_rows_window1 wf j
  have hn : n.val < N := n.isLt
  have hc : c.val < C := c.isLt
  unfold ScatterDims.resultIdx?
  split
  · rename_i h
    have h0 : 0 ≤ (rowScatterDims N R C wf).start j idx (0 : Fin 2) + ((rowScatterDims N R C wf).window j (0 : Fin 2) : ℤ) ∧
        (rowScatterDims N R C wf).start j idx (0 : Fin 2) + ((rowScatterDims N R C wf).window j (0 : Fin 2) : ℤ) < (N : ℤ) := h 0
    have h1 : 0 ≤ (rowScatterDims N R C wf).start j idx (1 : Fin 2) + ((rowScatterDims N R C wf).window j (1 : Fin 2) : ℤ) ∧
        (rowScatterDims N R C wf).start j idx (1 : Fin 2) + ((rowScatterDims N R C wf).window j (1 : Fin 2) : ℤ) < (C : ℤ) := h 1
    rw [Option.some.injEq]
    constructor
    · intro hf
      have e0 : ((rowScatterDims N R C wf).start j idx (0 : Fin 2) + ((rowScatterDims N R C wf).window j (0 : Fin 2) : ℤ)).toNat
          = n.val := congrArg Fin.val (congrFun hf 0)
      have e1 : ((rowScatterDims N R C wf).start j idx (1 : Fin 2) + ((rowScatterDims N R C wf).window j (1 : Fin 2) : ℤ)).toNat
          = c.val := congrArg Fin.val (congrFun hf 1)
      rw [hs0, hw0] at e0 h0
      rw [hs1, hw1] at e1
      constructor <;> omega
    · rintro ⟨g0, g1⟩
      funext a; refine Fin.ext ?_
      match a with
      | ⟨0, _⟩ =>
        show ((rowScatterDims N R C wf).start j idx (0 : Fin 2) + ((rowScatterDims N R C wf).window j (0 : Fin 2) : ℤ)).toNat
          = n.val
        rw [hs0, hw0, g0]; omega
      | ⟨1, _⟩ =>
        show ((rowScatterDims N R C wf).start j idx (1 : Fin 2) + ((rowScatterDims N R C wf).window j (1 : Fin 2) : ℤ)).toNat
          = c.val
        rw [hs1, hw1]; omega
  · rename_i h
    constructor
    · intro hf; exact absurd hf (by simp)
    · rintro ⟨g0, g1⟩
      exfalso; apply h
      intro a
      match a with
      | ⟨0, _⟩ =>
        show 0 ≤ (rowScatterDims N R C wf).start j idx (0 : Fin 2) + ((rowScatterDims N R C wf).window j (0 : Fin 2) : ℤ) ∧
          (rowScatterDims N R C wf).start j idx (0 : Fin 2) + ((rowScatterDims N R C wf).window j (0 : Fin 2) : ℤ) < (N : ℤ)
        rw [hs0, hw0, g0]; omega
      | ⟨1, _⟩ =>
        show 0 ≤ (rowScatterDims N R C wf).start j idx (1 : Fin 2) + ((rowScatterDims N R C wf).window j (1 : Fin 2) : ℤ) ∧
          (rowScatterDims N R C wf).start j idx (1 : Fin 2) + ((rowScatterDims N R C wf).window j (1 : Fin 2) : ℤ) < (C : ℤ)
        rw [hs1, hw1]; omega

/-- THE ROW SCATTER-ADD READ AT `(n, c)`, at the exact reading: the old entry plus the updates' column `c` summed
    over the rows sent to `n`. -/
theorem scatterAdd_rows_apply {N R C w : ℕ}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (c : Fin C) :
    Host.scatterAdd (F := Ideal) (φ := .f32) (rowScatterDims N R C wf) x idx upd (ix2 n c)
      = x (ix2 n c) + ∑ e ∈ Finset.univ.filter (fun e : Fin R => (idx (ix2 e (0 : Fin 1))).toInt = (n.val : ℤ)),
          upd (ix2 e c) := by
  show Ideal.hostScatterAdd (rowScatterDims N R C wf) x idx upd (ix2 n c) = _
  unfold Ideal.hostScatterAdd
  congr 1
  symm
  refine Finset.sum_bij (fun e _ => ix2 e c) ?_ ?_ ?_ ?_
  · intro e he
    rw [Finset.mem_filter] at he ⊢
    refine ⟨Finset.mem_univ _, ?_⟩
    rw [scatter_rows_resultIdx_iff]
    exact ⟨he.2, rfl⟩
  · intro e₁ _ e₂ _ h
    exact congrFun h 0
  · intro j hj
    obtain ⟨p, q, rfl⟩ : ∃ (p : Fin R) (q : Fin C), j = ix2 p q := ⟨j 0, j 1, eq_ix2 j⟩
    rw [Finset.mem_filter, scatter_rows_resultIdx_iff] at hj
    obtain ⟨-, g0, g1⟩ := hj
    refine ⟨p, ?_, ?_⟩
    · rw [Finset.mem_filter]
      exact ⟨Finset.mem_univ _, g0⟩
    · have hq : q = c := Fin.ext g1
      rw [hq]
  · intro e _
    rfl

end Cert.LibRows

end
-- ==== Proof.BridgeB.lean ====
/-
  The two programs' results agree entry by entry. The kernel program carries the second layer 128 columns wide
  (its weight, bias and residual weight padded with zero columns) and keeps the first two columns at the end; the
  reference carries two columns throughout. At a kept entry `(n, c)`, `c < 2`: the padded products read the
  unpadded weights; a row gather moves column `c` to column `c`; a row scatter-add sums column `c` of the
  updates over the edges arriving at `n`; so both sides are the same sum of the same terms, and the pointwise
  combination after them is the same expression.
-/
import proofs.«141270_j15556371546755_1_alg».proof.Proof.BridgeA
import proofs.«141270_j15556371546755_1_alg».proof.Proof.LibRows
import Idealize.ShloMosaic.Lib.KernelVsHost

noncomputable section

namespace Cert.Bridge

open Cert.KernelIdeal Idealize.ShloMosaic Idealize.ShloMosaic.TcCoe Idealize.ShloMosaic.ValueIdx

variable (x0 : KV.T S50000x128) (x1 : KV.TI S2x1600000) (x2 : KV.T S128x128) (x3 : KV.T S128) (x4 : KV.T S256x2) (x5 : KV.T S2) (x6 : KV.T S128x2)

/-- A kept column, seen among the 128 columns the kernel program carries. -/
abbrev wideCol (c : Fin 2) : Fin 128 := ⟨c.val, by omega⟩

/-- The second layer's padded weight, read at a kept column, is the weight itself. -/
theorem padW4_apply (k : Fin 256) (c : Fin 2) : KV.v46 x4 (ix2 k (wideCol c)) = x4 (ix2 k c) := by
  unfold KV.v46
  exact pad_apply_of_inside ![0, 0] ![0, 126] ![0, 0] x4 KV.padv Facts₀.pads_S256x2_S256x128_000_01260 Facts₀.h_S_
    (ix2 k (wideCol c)) (ix2 k c) (fun a => match a with
      | ⟨0, _⟩ => by show k.val = 0 + k.val * (0 + 1); omega
      | ⟨1, _⟩ => by show c.val = 0 + c.val * (0 + 1); omega)

/-- The residual's padded weight, read at a kept column, is the weight itself. -/
theorem padW6_apply (k : Fin 128) (c : Fin 2) : KV.v49 x6 (ix2 k (wideCol c)) = x6 (ix2 k c) := by
  unfold KV.v49
  exact pad_apply_of_inside ![0, 0] ![0, 126] ![0, 0] x6 KV.padv Facts₀.pads_S128x2_S128x128_000_01260 Facts₀.h_S_
    (ix2 k (wideCol c)) (ix2 k c) (fun a => match a with
      | ⟨0, _⟩ => by show k.val = 0 + k.val * (0 + 1); omega
      | ⟨1, _⟩ => by show c.val = 0 + c.val * (0 + 1); omega)

/-- (a) The second layer's linear map: at a kept column the 128-wide product is the 2-wide one, at every row. -/
theorem lin2_apply (n : Fin 50000) (c : Fin 2) :
    KV.v50 x0 x1 x2 x3 x4 (ix2 n (wideCol c))
      = Cert.ReferenceIdeal.Read.val_main_v51 (F := Ideal) x0 x1 x2 x3 x4 (ix2 n c) := by
  rw [Cert.ReferenceIdeal.Read.val_main_v51_apply, ← cat_eq x0 x1 x2 x3]
  unfold KV.v50 Spec.mm
  refine Finset.sum_congr rfl fun k _ => ?_
  have el : Cert.ReferenceIdeal.Read.lidx_main_v51 (ix2 n c) k = ix2 n k :=
    funext fun a => Fin.ext (by match a with | ⟨0, _⟩ => rfl | ⟨1, _⟩ => rfl)
  have er : Cert.ReferenceIdeal.Read.ridx_main_v51 (ix2 n c) k = ix2 k c :=
    funext fun a => Fin.ext (by match a with | ⟨0, _⟩ => rfl | ⟨1, _⟩ => rfl)
  rw [el, er, ← padW4_apply x4 k c]

/-- (b) The dense residual: the same, with the residual's weight. -/
theorem skip_apply (n : Fin 50000) (c : Fin 2) :
    KV.v63 x0 x6 (ix2 n (wideCol c)) = Cert.ReferenceIdeal.Read.val_main_v96 (F := Ideal) x0 x6 (ix2 n c) := by
  rw [Cert.ReferenceIdeal.Read.val_main_v96_apply]
  unfold KV.v63 Spec.mm
  refine Finset.sum_congr rfl fun k _ => ?_
  have el : Cert.ReferenceIdeal.Read.lidx_main_v96 (ix2 n c) k = ix2 n k :=
    funext fun a => Fin.ext (by match a with | ⟨0, _⟩ => rfl | ⟨1, _⟩ => rfl)
  have er : Cert.ReferenceIdeal.Read.ridx_main_v96 (ix2 n c) k = ix2 k c :=
    funext fun a => Fin.ext (by match a with | ⟨0, _⟩ => rfl | ⟨1, _⟩ => rfl)
  rw [el, er, ← padW6_apply x6 k c]

/-- (c) The bias: the padded bias laid as a row, read at a kept column, and the reference's bias laid down the
    rows, are both the bias at that column. -/
theorem bias_apply (n : Fin 50000) (c : Fin 2) :
    KV.v48 x5 (ix2 (0 : Fin 1) (wideCol c)) = Cert.ReferenceIdeal.Read.val_main_v94 (F := Ideal) x5 (ix2 n c) := by
  have hk : KV.v48 x5 (ix2 (0 : Fin 1) (wideCol c)) = x5 (ix1 c) := by
    unfold KV.v48
    refine (shapeCast_apply _ Facts₀.shapeCasts_S128_S1x128 (ix2 (0 : Fin 1) (wideCol c)) (ix1 (wideCol c)) (by
      rw [Shape.rowMajor_val_two, Shape.rowMajor_val_one]
      show c.val = 0 * 128 + c.val
      omega)).trans ?_
    exact pad_apply_of_inside ![0] ![126] ![0] x5 KV.padv Facts₀.pads_S2_S128_01260 Facts₀.h_S_
      (ix1 (wideCol c)) (ix1 c) (fun a => match a with
        | ⟨0, _⟩ => by show c.val = 0 + c.val * (0 + 1); omega)
  have hr : Cert.ReferenceIdeal.Read.idx_main_v93 (Cert.ReferenceIdeal.Read.idx_main_v94 (ix2 n c)) = ix1 c :=
    funext fun a => Fin.ext (by match a with | ⟨0, _⟩ => rfl)
  rw [hk, Cert.ReferenceIdeal.Read.val_main_v94_apply, Cert.ReferenceIdeal.Read.val_main_v93_apply, hr]

/-- (d) The self weight: the kernel program reads the square of the degree normalisation through a column, the reference
    through two broadcasts; both are the square at the row. -/
theorem selfw_apply (n : Fin 50000) (c : Fin 2) :
    KV.v29 x1 (ix2 n (0 : Fin 1)) = Cert.ReferenceIdeal.Read.val_main_v90 (F := Ideal) x1 (ix2 n c) := by
  have hr : Cert.ReferenceIdeal.Read.idx_main_v89 (Cert.ReferenceIdeal.Read.idx_main_v90 (ix2 n c)) = ix1 n :=
    funext fun a => Fin.ext (by match a with | ⟨0, _⟩ => rfl)
  rw [Cert.ReferenceIdeal.Read.val_main_v90_apply, Cert.ReferenceIdeal.Read.val_main_v89_apply,
    Cert.ReferenceIdeal.Read.val_main_v88_apply, hr, Ideal.mulf_def, ← dinv_eq59 x1]
  unfold KV.v29
  rw [Cert.LibColumn.shapeCast_a_a1_apply, mulf_apply]

/-- Each edge's weight laid across the columns: at a kept column both programs read the weight column. -/
theorem edgew_apply (e : Fin 1600000) (c : Fin 2) :
    KV.v38 x1 (ix2 e (wideCol c)) = Cert.ReferenceIdeal.Read.val_main_v83 (F := Ideal) x1 (ix2 e c) := by
  have hr : Cert.ReferenceIdeal.Read.idx_main_v83 (ix2 e c) = ix2 e (0 : Fin 1) :=
    funext fun a => Fin.ext (by match a with | ⟨0, _⟩ => rfl | ⟨1, _⟩ => rfl)
  rw [Cert.ReferenceIdeal.Read.val_main_v83_apply, hr, ← norm_eq82 x1]
  unfold KV.v38
  generalize KV.v27 x1 = y
  exact broadcastInDim_apply _ Facts₀.bcast_S1600000x1_S1600000x128_0_1 y (ix2 e (wideCol c)) (ix2 e (0 : Fin 1))
    (fun a => match a with
      | ⟨0, _⟩ => by show e.val = if (1600000 : Nat) = 1 then 0 else e.val; rw [if_neg (by decide)]
      | ⟨1, _⟩ => by show 0 = if (1 : Nat) = 1 then 0 else c.val; rw [if_pos rfl])

/-- The kernel program's aggregate of a 128-wide node array, read at an entry: zero plus, over the edges arriving at
    the row, the array at the edge's source row times the edge's weight, column by column. -/
theorem aggK_apply (h : KV.T S50000x128) (n : Fin 50000) (c' : Fin 128) :
    KV.aggregate x1 h (ix2 n c')
      = Ideal.ofBits .f32 0x00000000#32
        + ∑ e ∈ Finset.univ.filter (fun e : Fin 1600000 => (KV.v6 x1 (ix2 e (0 : Fin 1))).toInt = (n.val : ℤ)),
            h (ix2 (Cert.LibRows.rowAt (N := 50000) (by decide) (KV.v17 x1) e) c') * KV.v38 x1 (ix2 e c') := by
  have hd : scatter_S50000x128_S1600000x1_S1600000x128_1_0_0_1
      = Cert.LibRows.rowScatterDims 50000 1600000 128 Facts₀.scatter_S50000x128_S1600000x1_S1600000x128_1_0_0_1_wf := rfl
  have hg : gather_S50000x128_S1600000x1_S1600000x128_1_0_n_n_0_1_1128
      = Cert.LibRows.rowGatherDims 50000 1600000 128 Facts₀.gather_S50000x128_S1600000x1_S1600000x128_1_0_n_n_0_1_1128_wf := rfl
  unfold KV.aggregate
  rw [hd, hg, Cert.LibRows.scatterAdd_rows_apply]
  refine congrArg₂ (· + ·) ?_ ?_
  · exact (broadcastInDim_apply _ Facts₀.bcast_S_S50000x128 _ (ix2 n c') (fun a => a.elim0) (fun a => a.elim0)).trans rfl
  · refine Finset.sum_congr rfl fun e _ => ?_
    rw [mulf_apply, Cert.LibRows.gather_rows_apply (by decide)]

/-- The reference's second aggregate, read at an entry, in the same form. -/
theorem aggR_apply (n : Fin 50000) (c : Fin 2) :
    Cert.ReferenceIdeal.Read.val_main_v87 (F := Ideal) x0 x1 x2 x3 x4 (ix2 n c)
      = Ideal.ofBits .f32 0x00000000#32
        + ∑ e ∈ Finset.univ.filter (fun e : Fin 1600000 =>
              (Cert.ReferenceIdeal.Read.val_main_v86 (F := Ideal) x1 (ix2 e (0 : Fin 1))).toInt = (n.val : ℤ)),
            Cert.ReferenceIdeal.Read.val_main_v51 (F := Ideal) x0 x1 x2 x3 x4
                (ix2 (Cert.LibRows.rowAt (N := 50000) (by decide) (Cert.ReferenceIdeal.Read.val_main_v80 (F := Ideal) x1) e) c)
              * Cert.ReferenceIdeal.Read.val_main_v83 (F := Ideal) x1 (ix2 e c) := by
  have hd : Cert.ReferenceIdeal.scatter_S50000x2_S1600000x1_S1600000x2_1_0_0_1
      = Cert.LibRows.rowScatterDims 50000 1600000 2 Cert.ReferenceIdeal.Facts₀.scatter_S50000x2_S1600000x1_S1600000x2_1_0_0_1_wf := rfl
  have hg : Cert.ReferenceIdeal.gather_S50000x2_S1600000x1_S1600000x2_1_0_n_n_0_1_12
      = Cert.LibRows.rowGatherDims 50000 1600000 2 Cert.ReferenceIdeal.Facts₀.gather_S50000x2_S1600000x1_S1600000x2_1_0_n_n_0_1_12_wf := rfl
  unfold Cert.ReferenceIdeal.Read.val_main_v87
  rw [hd, Cert.LibRows.scatterAdd_rows_apply]
  refine congrArg₂ (· + ·) ?_ ?_
  · rw [Cert.ReferenceIdeal.Read.val_main_v85_apply]; rfl
  · refine Finset.sum_congr rfl fun e _ => ?_
    rw [Cert.ReferenceIdeal.Read.val_main_v84_apply, Ideal.mulf_def]
    unfold Cert.ReferenceIdeal.Read.val_main_v81
    rw [hg, Cert.LibRows.gather_rows_apply (by decide)]

/-- (e) The second layer's aggregates: the same sum, over the same edges, of the same terms. -/
theorem agg2_apply (n : Fin 50000) (c : Fin 2) :
    KV.v62 x0 x1 x2 x3 x4 (ix2 n (wideCol c))
      = Cert.ReferenceIdeal.Read.val_main_v87 (F := Ideal) x0 x1 x2 x3 x4 (ix2 n c) := by
  unfold KV.v62
  rw [aggK_apply, aggR_apply, dstCol_eq86 x1, srcCol_eq80 x1]
  refine congrArg₂ (· + ·) rfl ?_
  refine Finset.sum_congr rfl fun e _ => ?_
  rw [lin2_apply, edgew_apply]

/-- The kernel program's result is the reference's, as functions of the seven arguments. -/
theorem result_eq : KV.v65 x0 x1 x2 x3 x4 x5 x6
    = Cert.ReferenceIdeal.Read.val_main_v97 (F := Ideal) x0 x1 x2 x3 x4 x5 x6 := by
  funext i
  obtain ⟨n, c, rfl⟩ : ∃ (n : Fin 50000) (c : Fin 2), i = ix2 n c := ⟨i 0, i 1, eq_ix2 i⟩
  -- the kept entry is the 128-wide entry in the same row and column
  have hs : KV.v65 x0 x1 x2 x3 x4 x5 x6 (ix2 n c) = KV.v64 x0 x1 x2 x3 x4 x5 x6 (ix2 n (wideCol c)) := by
    unfold KV.v65
    generalize KV.v64 x0 x1 x2 x3 x4 x5 x6 = y
    exact extractStridedSlice_apply ![0, 0] y Facts₀.slices_S50000x128_S50000x2_0_0 (ix2 n c) (ix2 n (wideCol c))
      (fun a => match a with
        | ⟨0, _⟩ => by show n.val = 0 + n.val; omega
        | ⟨1, _⟩ => by show c.val = 0 + c.val; omega)
  -- the 128-wide entry is the pointwise combination of the five terms
  have hk : KV.v64 x0 x1 x2 x3 x4 x5 x6 (ix2 n (wideCol c))
      = KV.v62 x0 x1 x2 x3 x4 (ix2 n (wideCol c)) + KV.v50 x0 x1 x2 x3 x4 (ix2 n (wideCol c)) * KV.v29 x1 (ix2 n (0 : Fin 1))
        + KV.v48 x5 (ix2 (0 : Fin 1) (wideCol c)) + KV.v63 x0 x6 (ix2 n (wideCol c)) := by
    unfold KV.v64 Spec.combSkip
    rfl
  rw [hs, hk, Cert.ReferenceIdeal.Read.val_main_v97_apply, Cert.ReferenceIdeal.Read.val_main_v95_apply,
    Cert.ReferenceIdeal.Read.val_main_v92_apply, Cert.ReferenceIdeal.Read.val_main_v91_apply,
    Ideal.addf_def, Ideal.addf_def, Ideal.addf_def, Ideal.mulf_def,
    agg2_apply, lin2_apply, selfw_apply x1 n c, bias_apply x5 n c, skip_apply]

end Cert.Bridge

end
-- ==== Proof.lean ====
/-
  A two-layer graph convolution with a concatenated skip and a dense residual: `out = Â·(h2·W2) + b2 + x·W_skip`
  with `h2 = [x, relu(Â·(x·W1) + b1)]` and `Â` the symmetrically normalised adjacency with self loops
  (`Â·h = scatter_add(dst, h[src] · dinv[src] · dinv[dst]) + h · dinv²`, `dinv = (in-degree + 1)^(-1/2)`).
  The kernel program computes the three dense products and the two pointwise combinations in five tiled kernel
  launches (25 blocks of 2000 nodes each) and leaves the gathers and scatter-adds to the host, as the reference does;
  it carries the second layer 128 columns wide, its weights padded with zero columns, and keeps columns 0 and 1.
  Read over the extended reals both programs are the same expression: a tiled product is the product (each row
  block of the result is that block of the whole product), a padded weight's first two columns are the weight's, a
  row gather and a row scatter-add move column `c` to column `c`, so column `c < 2` of every 128-wide array is
  column `c` of the reference's 2-wide one, and the final combination is the same sum in the same order. No
  finiteness is used: the proof never opens the precondition.
  `KRun` states the kernel program's run with its result buffer named; `KHost` reads that buffer as the function
  `KV.v65` of the launch arguments (through the five launches' whole-array values `Reg0` … `Reg4`); the reference's
  run and its stage-by-stage reading are the generated modules; `BridgeA`/`BridgeB` prove the two functions equal.
-/
import proofs.«141270_j15556371546755_1_alg».proof.Defs
import proofs.«141270_j15556371546755_1_alg».proof.Proof.Gen.Kernel
import proofs.«141270_j15556371546755_1_alg».proof.Proof.Gen.Kernel.Skeleton
import proofs.«141270_j15556371546755_1_alg».proof.Proof.Gen.Kernel.Launch
import proofs.«141270_j15556371546755_1_alg».proof.Proof.Gen.Kernel.Points
import proofs.«141270_j15556371546755_1_alg».proof.Proof.Gen.Kernel.Frame
import proofs.«141270_j15556371546755_1_alg».proof.Proof.Gen.KernelIdeal
import proofs.«141270_j15556371546755_1_alg».proof.Proof.Gen.KernelIdeal.Skeleton
import proofs.«141270_j15556371546755_1_alg».proof.Proof.Gen.KernelIdeal.Launch
import proofs.«141270_j15556371546755_1_alg».proof.Proof.Gen.KernelIdeal.Points
import proofs.«141270_j15556371546755_1_alg».proof.Proof.Gen.KernelIdeal.Frame
import proofs.«141270_j15556371546755_1_alg».proof.Proof.Gen.ReferenceIdeal
import proofs.«141270_j15556371546755_1_alg».proof.Proof.Gen.Pre_finite_inputs
import proofs.«141270_j15556371546755_1_alg».proof.Proof.Gen.ReferenceIdeal.Run
import proofs.«141270_j15556371546755_1_alg».proof.Proof.Gen.ReferenceIdeal.Read
import proofs.«141270_j15556371546755_1_alg».proof.Proof.KRun
import proofs.«141270_j15556371546755_1_alg».proof.Proof.KHost
import proofs.«141270_j15556371546755_1_alg».proof.Proof.BridgeB
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ
/-- The kernel program read over the extended reals runs and keeps its arguments. -/
theorem frame_kernelIdeal : Cert.frame_KernelIdeal := fun m ρ _ => Cert.KernelIdeal.Gen.frame m ρ
/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel program's run over the extended reals, its result the function `KV.v65` of the launch arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v65)
          = Cert.KernelIdeal.KV.v65 (Cert.KernelIdeal.KHost.a0 m c) (Cert.KernelIdeal.KHost.a1 m c) (Cert.KernelIdeal.KHost.a2 m c)
              (Cert.KernelIdeal.KHost.a3 m c) (Cert.KernelIdeal.KHost.a4 m c) (Cert.KernelIdeal.KHost.a5 m c) (Cert.KernelIdeal.KHost.a6 m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono
    (fun _ h c => ⟨(h c).1.trans (Cert.KernelIdeal.KHost.W15_v65 m ρ c), (h c).2⟩)
    (Cert.KernelIdeal.KRun.run (F := Ideal) m ρ)

/-- From memories that agree on the arguments both programs end with the same result array: the kernel program's
    result function of the arguments is the reference's (`Bridge.result_eq`). -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v97_eq, (hagree c).1, (hagree c).2.1, (hagree c).2.2.1, (hagree c).2.2.2.1,
    (hagree c).2.2.2.2.1, (hagree c).2.2.2.2.2.1, (hagree c).2.2.2.2.2.2]
  exact (Cert.Bridge.result_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
